-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S_ : Shape := ⟨0, ![]⟩

class Facts : Prop where
  bcast_S_S131072x512 : S_.BroadcastsInDim S131072x512 (![] : Fin 0 → Fin S131072x512.rank)
  reducesTo_S131072x512_S_d0_1 : S131072x512.ReducesTo [0, 1] S_
  h_S_ : 0 < S_.numel
  bcast_S_S64x512 : S_.BroadcastsInDim S64x512 (![] : Fin 0 → Fin S64x512.rank)
  reducesTo_S64x512_S_d0_1 : S64x512.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S1024x512 .f32) (main_arg7 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_v33

def fn {F : FTy → Type} [FloatOps F] (main_arg0 : FVec F S131072x512 .f32) (main_arg1 : FVec F S64x512 .f32) (main_arg2 : FVec F S512x128 .f32) (main_arg3 : FVec F S128 .f32) (main_arg4 : FVec F S128x64 .f32) (main_arg5 : FVec F S64 .f32) (main_arg6 : FVec F S1024x512 .f32) (main_arg7 : FVec F S512 .f32) : IVec S_ 1 :=
  let main_v0 : FVec F S131072x512 .f32 := Host.absf main_arg0
  let main_cst : FVec F S_ .f32 := constant S_ .f32 0x7F800000#32
  let main_v1 : FVec F S131072x512 .f32 := broadcastInDim S131072x512 ![] bcast_S_S131072x512 main_cst
  let main_v2 : IVec S131072x512 1 := cmpf .olt main_v0 main_v1
  let main_c : IVec S_ 1 := constantI S_ 1 1#1
  let main_v3 : IVec S_ 1 := (fun x v => Host.reduce IntOp.andi x v reducesTo_S131072x512_S_d0_1 h_S_) main_v2 main_c
  let main_v4 : FVec F S64x512 .f32 := Host.absf main_arg1
  let main_cst_0 : FVec F S_ .f32 := constant S_ .f32 0x7F800000#32
  let main_v5 : FVec F S64x512 .f32 := broadcastInDim S64x512 ![] bcast_S_S64x512 main_cst_0
  let main_v6 : IVec S64x512 1 := cmpf .olt main_v4 main_v5
  let main_c_1 : IVec S_ 1 := constantI S_ 1 1#1
  let main_v7 : IVec S_ 1 := (fun x v => Host.reduce IntOp.andi x v reducesTo_S64x512_S_d0_1 h_S_) main_v6 main_c_1
  let main_v8 : IVec S_ 1 := andi main_v3 main_v7
  let main_v9 : FVec F S512x128 .f32 := Host.absf main_arg2
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S1024x128 : Shape := ⟨2, ![1024, 128]⟩
abbrev S1x128 : Shape := ⟨2, ![1, 128]⟩
abbrev S1024x64 : Shape := ⟨2, ![1024, 64]⟩
abbrev S1x64 : Shape := ⟨2, ![1, 64]⟩
abbrev S1024 : Shape := ⟨1, ![1024]⟩
abbrev S1024x1 : Shape := ⟨2, ![1024, 1]⟩
abbrev S1024x1024 : Shape := ⟨2, ![1024, 1024]⟩
abbrev S1x512 : Shape := ⟨2, ![1, 512]⟩

abbrev nBuf : Space → Nat
  | .hbm => 10
  | .vmem => 13
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1024x512, .f32⟩
  | .hbm, ⟨7, _⟩ => ⟨S512, .f32⟩
  | .hbm, ⟨8, _⟩ => ⟨S131072x512, .f32⟩
  | .hbm, ⟨9, _⟩ => ⟨S64x512, .f32⟩
  | .local _ .vmem, ⟨0, _⟩ => ⟨S1024x512, .f32⟩
  | .local _ .vmem, ⟨1, _⟩ => ⟨S1024x512, .f32⟩
  | .local _ .vmem, ⟨2, _⟩ => ⟨S64x512, .f32⟩
  | .local _ .vmem, ⟨3, _⟩ => ⟨S512x128, .f32⟩
  | .local _ .vmem, ⟨4, _⟩ => ⟨S128, .f32⟩
  | .local _ .vmem, ⟨5, _⟩ => ⟨S128x64, .f32⟩
  | .local _ .vmem, ⟨6, _⟩ => ⟨S64, .f32⟩
  | .local _ .vmem, ⟨7, _⟩ => ⟨S1024x512, .f32⟩
  | .local _ .vmem, ⟨8, _⟩ => ⟨S512, .f32⟩
  | .local _ .vmem, ⟨9, _⟩ => ⟨S1024x512, .f32⟩
  | .local _ .vmem, ⟨10, _⟩ => ⟨S1024x512, .f32⟩
  | .local _ .vmem, ⟨11, _⟩ => ⟨S64x512, .f32⟩
  | .local _ .vmem, ⟨12, _⟩ => ⟨S64x512, .f32⟩
  | _, _ => ⟨S131072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v55 : BitVec 1 := Scalar.cmpi .eq arg0 c127_i32
  let v56 : BitVec 32 := Scalar.extui v55
  let c0_i32_27 : BitVec 32 := 0#32
  let v57 : BitVec 1 := Scalar.cmpi .ne v56 c0_i32_27
  v57

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S64x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S128_S128_0 : ∀ a, (![0] : Fin 1 → Nat) a + S128.size a ≤ S128.size a
  h_S128 : 0 < S128.numel
  shapeCasts_S128_S1x128 : S128.ShapeCasts S1x128
  broadcasts_S1x128_S1024x128 : S1x128.Broadcasts S1024x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  concatenates_S1024x512_S1024x512_S1024x1024_d1 : Shape.Concatenates [S1024x512, S1024x512] S1024x1024 1
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  dot_S1024x512_S512x128_S1024x128_1_0_0_1_n_n_wf : DotDims.WF S1024x512 S512x128 S1024x128 [1] [0] [0] [1] [] []
  dot_S1024x128_S128x64_S1024x64_1_0_0_1_n_n_wf : DotDims.WF S1024x128 S128x64 S1024x64 [1] [0] [0] [1] [] []
  dot_S1024x64_S64x512_S1024x512_1_0_0_1_n_n_wf : DotDims.WF S1024x64 S64x512 S1024x512 [1] [0] [0] [1] [] []
  dot_S1024x1024_S1024x512_S1024x512_1_0_0_1_n_n_wf : DotDims.WF S1024x1024 S1024x512 S1024x512 [1] [0] [0] [1] [] []
  dot_S1024x64_S1024x512_S64x512_0_0_1_1_n_n_wf : DotDims.WF S1024x64 S1024x512 S64x512 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S131072x512.size a
  hwx0_0 : ∀ i : grid0.Coords, EltTy.bits .f32 = 32 ∨ (Rect.block (s := S131072x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x512.size a ≤ S64x512.size a
  hwx0_1 : ∀ i : grid0.Coords, EltTy.bits .f32 = 32 ∨ (Rect.block (s := S64x512) S64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x512.size a ≤ S1024x512.size a
  hwx0_6 : ∀ i : grid0.Coords, EltTy.bits .f32 = 32 ∨ (Rect.block (s := S1024x512) S1024x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S131072x512.size a
  hwx0_8 : ∀ i : grid0.Coords, EltTy.bits .f32 = 32 ∨ (Rect.block (s := S131072x512) S1024x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x512.size a ≤ S64x512.size a
  hwx0_9 : ∀ i : grid0.Coords, EltTy.bits .f32 = 32 ∨ (Rect.block (s := S64x512) S64x512.size (cc0_transform_9 i) (hinb0_9 i)).WholeWords (EltTy.packing .f32)

variable [Facts₀]

def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S1024x64_S64x512_S1024x512_1_0_0_1_n_n : DotDims S1024x64 S64x512 S1024x512 where
  lhsContracting := [1]
  rhsContracting := [0]
  lhsNonContracting := [0]
  rhsNonContracting := [1]
  lhsBatch := []
  rhsBatch := []
  wf := dot_S1024x64_S64x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x64_S1024x512_S64x512_0_0_1_1_n_n : DotDims S1024x64 S1024x512 S64x512 where
  lhsContracting := [0]
  rhsContracting := [0]
  lhsNonContracting := [1]
  rhsNonContracting := [1]
  lhsBatch := []
  rhsBatch := []
  wf := dot_S1024x64_S1024x512_S64x512_0_0_1_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S1024x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x512.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | ⟨_ + 10, h⟩ => absurd h (Nat.not_lt.2 (Nat.le_add_left _ _))

class Facts : Prop extends Facts₀ where

variable [Facts]
-- ==== ReferenceIdeal.lean ====
abbrev S131072x512 : Shape := ⟨2, ![131072, 512]⟩
abbrev S64x512 : Shape := ⟨2, ![64, 512]⟩
abbrev S512x128 : Shape := ⟨2, ![512, 128]⟩
abbrev S128 : Shape := ⟨1, ![128]⟩
abbrev S128x64 : Shape := ⟨2, ![128, 64]⟩
abbrev S64 : Shape := ⟨1, ![64]⟩
abbrev S1024x512 : Shape := ⟨2, ![1024, 512]⟩
abbrev S512 : Shape := ⟨1, ![512]⟩
abbrev S131072x128 : Shape := ⟨2, ![131072, 128]⟩
abbrev S1x128 : Shape := ⟨2, ![1, 128]⟩
abbrev S_ : Shape := ⟨0, ![]⟩
abbrev S131072x64 : Shape := ⟨2, ![131072, 64]⟩
abbrev S1x64 : Shape := ⟨2, ![1, 64]⟩
abbrev S131072 : Shape := ⟨1, ![131072]⟩
abbrev S131072x1 : Shape := ⟨2, ![131072, 1]⟩
abbrev S131072x1024 : Shape := ⟨2, ![131072, 1024]⟩
abbrev S1x512 : Shape := ⟨2, ![1, 512]⟩
abbrev S64x131072 : Shape := ⟨2, ![64, 131072]⟩

abbrev nBuf : Space → Nat
  | .hbm => 46
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S64x512, .f32⟩
  | .hbm, ⟨2, _⟩ => ⟨S512x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1024x512, .f32⟩
  | .hbm, ⟨7, _⟩ => ⟨S512, .f32⟩
  | .hbm, ⟨8, _⟩ => ⟨S131072x128, .f32⟩
  | .hbm, ⟨9, _⟩ => ⟨S1x128, .f32⟩
  | .hbm, ⟨10, _⟩ => ⟨S131072x128, .f32⟩
  | .hbm, ⟨11, _⟩ => ⟨S131072x128, .f32⟩
  | .hbm, ⟨12, _⟩ => ⟨S_, .f32⟩
  | .hbm, ⟨13, _⟩ => ⟨S131072x128, .f32⟩
  | .hbm, ⟨14, _⟩ => ⟨S131072x128, .f32⟩
  | .hbm, ⟨15, _⟩ => ⟨S131072x64, .f32⟩
  | .hbm, ⟨16, _⟩ => ⟨S1x64, .f32⟩
  | .hbm, ⟨17, _⟩ => ⟨S131072x64, .f32⟩
  | .hbm, ⟨18, _⟩ => ⟨S131072x64, .f32⟩
  | .hbm, ⟨19, _⟩ => ⟨S_, .f32⟩
  | .hbm, ⟨20, _⟩ => ⟨S131072, .f32⟩
  | .hbm, ⟨21, _⟩ => ⟨S_, .f32⟩
  | .hbm, ⟨22, _⟩ => ⟨S131072, .f32⟩
  | .hbm, ⟨23, _⟩ => ⟨S131072, .f32⟩
  | .hbm, ⟨24, _⟩ => ⟨S131072x1, .f32⟩
  | .hbm, ⟨25, _⟩ => ⟨S131072x64, .f32⟩
  | .hbm, ⟨26, _⟩ => ⟨S131072x64, .f32⟩
  | .hbm, ⟨27, _⟩ => ⟨S131072x64, .f32⟩
  | .hbm, ⟨28, _⟩ => ⟨S_, .f32⟩
  | .hbm, ⟨29, _⟩ => ⟨S131072, .f32⟩
  | .hbm, ⟨30, _⟩ => ⟨S131072x1, .f32⟩
  | .hbm, ⟨31, _⟩ => ⟨S131072x64, .f32⟩
  | .hbm, ⟨32, _⟩ => ⟨S131072x64, .f32⟩
  | .hbm, ⟨33, _⟩ => ⟨S131072x512, .f32⟩
  | .hbm, ⟨34, _⟩ => ⟨S131072x1024, .f32⟩
  | .hbm, ⟨35, _⟩ => ⟨S131072x512, .f32⟩
  | .hbm, ⟨36, _⟩ => ⟨S1x512, .f32⟩
  | .hbm, ⟨37, _⟩ => ⟨S131072x512, .f32⟩
  | .hbm, ⟨38, _⟩ => ⟨S131072x512, .f32⟩
  | .hbm, ⟨39, _⟩ => ⟨S131072x512, .f32⟩
  | .hbm, ⟨40, _⟩ => ⟨S64x131072, .f32⟩
  | .hbm, ⟨41, _⟩ => ⟨S64x512, .f32⟩
  | .hbm, ⟨42, _⟩ => ⟨S_, .f32⟩
  | .hbm, ⟨43, _⟩ => ⟨S64x512, .f32⟩
  | .hbm, ⟨44, _⟩ => ⟨S64x512, .f32⟩
  | .hbm, ⟨45, _⟩ => ⟨S64x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  reducesTo_S131072x64_S131072_d1 : S131072x64.ReducesTo [1] S131072
  h_S_ : 0 < S_.numel
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x64_0_1 : S131072x1.BroadcastsInDim S131072x64 (![0, 1] : Fin 2 → Fin S131072x64.rank)
  concatenates_S131072x512_S131072x512_S131072x1024_d1 : Shape.Concatenates [S131072x512, S131072x512] S131072x1024 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  transposes_S131072x64_S64x131072_1_0 : S131072x64.Transposes [1, 0] S64x131072
  bcast_S_S64x512 : S_.BroadcastsInDim S64x512 (![] : Fin 0 → Fin S64x512.rank)
  dot_S131072x512_S512x128_S131072x128_1_0_0_1_n_n_wf : DotDims.WF S131072x512 S512x128 S131072x128 [1] [0] [0] [1] [] []
  dot_S131072x128_S128x64_S131072x64_1_0_0_1_n_n_wf : DotDims.WF S131072x128 S128x64 S131072x64 [1] [0] [0] [1] [] []
  dot_S131072x64_S64x512_S131072x512_1_0_0_1_n_n_wf : DotDims.WF S131072x64 S64x512 S131072x512 [1] [0] [0] [1] [] []
  dot_S131072x1024_S1024x512_S131072x512_1_0_0_1_n_n_wf : DotDims.WF S131072x1024 S1024x512 S131072x512 [1] [0] [0] [1] [] []
  dot_S64x131072_S131072x512_S64x512_1_0_0_1_n_n_wf : DotDims.WF S64x131072 S131072x512 S64x512 [1] [0] [0] [1] [] []

variable [Facts₀]

def dot_S131072x512_S512x128_S131072x128_1_0_0_1_n_n : DotDims S131072x512 S512x128 S131072x128 where
  lhsContracting := [1]
  rhsContracting := [0]
  lhsNonContracting := [0]
  rhsNonContracting := [1]
  lhsBatch := []
  rhsBatch := []
  wf := dot_S131072x512_S512x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x1024_S1024x512_S131072x512_1_0_0_1_n_n : DotDims S131072x1024 S1024x512 S131072x512 where
  lhsContracting := [1]
  rhsContracting := [0]
  lhsNonContracting := [0]
  rhsNonContracting := [1]
  lhsBatch := []
  rhsBatch := []
  wf := dot_S131072x1024_S1024x512_S131072x512_1_0_0_1_n_n_wf
def dot_S64x131072_S131072x512_S64x512_1_0_0_1_n_n : DotDims S64x131072 S131072x512 S64x512 where
  lhsContracting := [1]
  rhsContracting := [0]
  lhsNonContracting := [0]
  rhsNonContracting := [1]
  lhsBatch := []
  rhsBatch := []
  wf := dot_S64x131072_S131072x512_S64x512_1_0_0_1_n_n_wf

class Facts : Prop extends Facts₀ where

variable [Facts]
-- ==== Proof.Spec.lean ====
/-
  The two results as functions of the argument arrays, row by row, over the extended reals.

  A row `x` of the batch (512 entries) determines, with the weights, everything the layer computes from it:
  the hidden units `max (x·w1 + b1) 0`, the logits `hid·w2 + b2`, their softmax (each logit less the row's
  maximum, exponentiated, divided by the row's sum of exponentials), the selected state `softmax·ref`
  (the first result's row), and the update `tanh ([x, selected]·wu + bu)`.  The second result adds to
  each reference state the 0.01-scaled sum over ALL rows of `softmax weight × update`.
  Arrays are written in coordinates (`Fin a → Fin b → EReal`), so that nothing here depends on how a
  program names its shapes.  The float words are kept as the words the programs print.
-/
import Idealize.ShloMosaic.PureOps.Ideal

noncomputable section

namespace Cert.Spec

open Idealize.ShloMosaic

/-- The word `0.0`. -/
abbrev zeroW : EReal := Ideal.ofBits .f32 0x00000000#32
/-- The word `-inf`, from which a row's maximum is folded. -/
abbrev negInfW : EReal := Ideal.ofBits .f32 0xFF800000#32
/-- The word the update is scaled by (f32 nearest 0.01). -/
abbrev lrW : EReal := Ideal.ofBits .f32 0x3C23D70A#32

section Row

variable (w1 : Fin 512 → Fin 128 → EReal) (b1 : Fin 128 → EReal)
  (w2 : Fin 128 → Fin 64 → EReal) (b2 : Fin 64 → EReal)

/-- Hidden unit `k` of a row: `max (∑ l, x l · w1 l k + b1 k) 0`. -/
def hid (x : Fin 512 → EReal) (k : Fin 128) : EReal :=
  max ((∑ l : Fin 512, x l * w1 l k) + b1 k) zeroW

/-- Logit `j` of a row. -/
def logit (x : Fin 512 → EReal) (j : Fin 64) : EReal :=
  (∑ k : Fin 128, hid w1 b1 x k * w2 k j) + b2 j

/-- The row's largest logit, folded from `-inf` (and compared with `-inf` once more, as both programs do). -/
def rowMax (x : Fin 512 → EReal) : EReal :=
  max negInfW ((Finset.univ : Finset (Fin 64)).fold max negInfW (logit w1 b1 w2 b2 x))

/-- The exponential of a logit less the row's maximum. -/
def ex (x : Fin 512 → EReal) (j : Fin 64) : EReal :=
  Ideal.exp (logit w1 b1 w2 b2 x j - rowMax w1 b1 w2 b2 x)

/-- Softmax weight `j` of a row. -/
def sw (x : Fin 512 → EReal) (j : Fin 64) : EReal :=
  Ideal.div (ex w1 b1 w2 b2 x j) (∑ j' : Fin 64, ex w1 b1 w2 b2 x j')

variable (ref : Fin 64 → Fin 512 → EReal)

/-- The selected state of a row: its softmax weights times the reference states. -/
def sel (x : Fin 512 → EReal) (d : Fin 512) : EReal :=
  ∑ j : Fin 64, sw w1 b1 w2 b2 x j * ref j d

/-- The row followed by its selected state (1024 entries). -/
def comb (x : Fin 512 → EReal) (k : Fin 1024) : EReal :=
  if h : k.val < 512 then x ⟨k.val, h⟩ else sel w1 b1 w2 b2 ref x ⟨k.val - 512, by have := k.isLt; omega⟩

variable (wu : Fin 1024 → Fin 512 → EReal) (bu : Fin 512 → EReal)

/-- The update a row proposes. -/
def upd (x : Fin 512 → EReal) (d : Fin 512) : EReal :=
  Ideal.tanh ((∑ k : Fin 1024, comb w1 b1 w2 b2 ref x k * wu k d) + bu d)

/-- What a row adds to reference state `j`, entry `d`: its weight for `j` times its update at `d`. -/
def term (x : Fin 512 → EReal) (j : Fin 64) (d : Fin 512) : EReal :=
  sw w1 b1 w2 b2 x j * upd w1 b1 w2 b2 ref wu bu x d

/-- The new reference states over a batch of `n` rows. -/
def newRef {n : ℕ} (X : Fin n → Fin 512 → EReal) (j : Fin 64) (d : Fin 512) : EReal :=
  ref j d + lrW * ∑ i : Fin n, term w1 b1 w2 b2 ref wu bu (X i) j d

end Row

/-! ## A sum over 128·1024 rows, block by block -/

/-- Row `r` of block `s`. -/
def rowOf (s : Fin 128) (r : Fin 1024) : Fin 131072 := ⟨1024 * s.val + r.val, by have := s.isLt; have := r.isLt; omega⟩

/-- Rows are (block, row in block) pairs. -/
def rowEquiv : Fin 128 × Fin 1024 ≃ Fin 131072 where
  toFun p := rowOf p.1 p.2
  invFun i := (⟨i.val / 1024, by have := i.isLt; omega⟩, ⟨i.val % 1024, Nat.mod_lt _ (by decide)⟩)
  left_inv p := by
    obtain ⟨s, r⟩ := p
    have hs := s.isLt; have hr := r.isLt
    ext
    · show (1024 * s.val + r.val) / 1024 = s.val
      omega
    · show (1024 * s.val + r.val) % 1024 = r.val
      omega
  right_inv i := by
    ext
    show 1024 * (i.val / 1024) + i.val % 1024 = i.val
    omega

/-- In any commutative monoid a sum over all rows is the sum over the blocks of each block's sum. -/
theorem sum_rows {M : Type*} [AddCommMonoid M] (f : Fin 131072 → M) :
    ∑ i : Fin 131072, f i = ∑ s : Fin 128, ∑ r : Fin 1024, f (rowOf s r) := by
  rw [← Equiv.sum_comp rowEquiv f, Fintype.sum_prod_type]
  rfl

end Cert.Spec

end
-- ==== Proof.Coords.lean ====
/-
  Arrays in coordinates: a rank-2 array as a function of its row and column, a rank-1 array as a
  function of its entry.  The row-wise specification is stated over these.
-/
import Idealize.ShloMosaic.Lib.ValueIdx

noncomputable section

namespace Cert.Coords

open Idealize.ShloMosaic Idealize.ShloMosaic.ValueIdx

/-- A rank-2 array, by row and column. -/
abbrev cur2 {a b : ℕ} (v : (⟨2, ![a, b]⟩ : Shape).Idx → EReal) : Fin a → Fin b → EReal := fun i j => v (ix2 i j)

/-- A rank-1 array, by entry. -/
abbrev cur1 {a : ℕ} (v : (⟨1, ![a]⟩ : Shape).Idx → EReal) : Fin a → EReal := fun i => v (ix1 i)

end Cert.Coords

end
-- ==== Proof.RefIs.lean ====
/-
  The reference's two results, read at an index: they are the row-wise specification at the rows of the
  whole batch.

  Each stage of the reference is read at an index built from coordinates; the composed index functions of the
  stages are identified with coordinate indices, and every stage then is the matching function of the
  specification at the row the index names.
-/
import proofs.«165977_j54614804136388_1_alg».proof.Proof.RefReadPatched
import proofs.«165977_j54614804136388_1_alg».proof.Proof.Spec
import proofs.«165977_j54614804136388_1_alg».proof.Proof.Coords
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefIs

open Cert.ReferenceIdeal Cert.ReferenceIdeal.ReadP Idealize.ShloMosaic Idealize.ShloMosaic.ValueIdx Cert.Coords

/-! ## The hidden units and the logits of a row -/

/-- Hidden unit `k` of row `i`: the row's product with the first weights, plus the bias, cut off below at zero. -/
theorem hid_eq (x0 : (⟨S131072x512, .f32⟩ : BufTy).Contents (Elt Ideal)) (x2 : (⟨S512x128, .f32⟩ : BufTy).Contents (Elt Ideal)) (x3 : (⟨S128, .f32⟩ : BufTy).Contents (Elt Ideal))
    (i : Fin 131072) (k : Fin 128) :
    val_main_v4 (F := Ideal) x0 x2 x3 (ix2 i k)
      = Cert.Spec.hid (cur2 x2) (cur1 x3) (fun l => x0 (ix2 i l)) k := by
  rw [val_main_v4_apply, val_main_v3_apply, val_main_v0_apply, val_main_v2_apply, val_main_v1_apply,
    val_main_call0_v0_apply, val_main_call0_cst_apply]
  have e1 : ∀ l : Fin 512, lidx_main_v0 (ix2 i k) l = ix2 i l := fun l =>
    funext fun a => Fin.ext (by match a with | ⟨0, _⟩ => rfl | ⟨1, _⟩ => rfl)
  have e2 : ∀ l : Fin 512, ridx_main_v0 (ix2 i k) l = ix2 l k := fun l =>
    funext fun a => Fin.ext (by match a with | ⟨0, _⟩ => rfl | ⟨1, _⟩ => rfl)
  have e3 : idx_main_v1 (idx_main_v2 (ix2 i k)) = ix1 k :=
    funext fun a => Fin.ext (by match a with | ⟨0, _⟩ => rfl)
  rw [e3, Finset.sum_congr rfl fun l _ => by rw [e1 l, e2 l]]
  simp only [Ideal.addf_def, Ideal.maximumf_def, Ideal.ofBits_def]
  rfl

/-- Logit `j` of row `i`. -/
theorem logit_eq (x0 : (⟨S131072x512, .f32⟩ : BufTy).Contents (Elt Ideal)) (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) (j : Fin 64) :
    val_main_v8 (F := Ideal) x0 x2 x3 x4 x5 (ix2 i j)
      = Cert.Spec.logit (cur2 x2) (cur1 x3) (cur2 x4) (cur1 x5) (fun l => x0 (ix2 i l)) j := by
  rw [val_main_v8_apply, val_main_v5_apply, val_main_v7_apply, val_main_v6_apply]
  have e1 : ∀ k : Fin 128, lidx_main_v5 (ix2 i j) k = ix2 i k := fun k =>
    funext fun a => Fin.ext (by match a with | ⟨0, _⟩ => rfl | ⟨1, _⟩ => rfl)
  have e2 : ∀ k : Fin 128, ridx_main_v5 (ix2 i j) k = ix2 k j := fun k =>
    funext fun a => Fin.ext (by match a with | ⟨0, _⟩ => rfl | ⟨1, _⟩ => rfl)
  have e3 : idx_main_v6 (idx_main_v7 (ix2 i j)) = ix1 j :=
    funext fun a => Fin.ext (by match a with | ⟨0, _⟩ => rfl)
  rw [e3, Finset.sum_congr rfl fun k _ => by rw [e1 k, e2 k, hid_eq]]
  simp only [Ideal.addf_def]
  rfl

/-! ## The row's maximum -/

/-- A maximum over the second axis of a `131072 × 64` array, at row `i`, is the fold of `max` over the row's 64
    entries from the initial value. -/
theorem reduce_max_row (y : S131072x64.Idx → EReal) (init : S_.Idx → EReal) (i : Fin 131072) :
    Host.reduce (FloatOps.maximumf (F := Ideal) (φ := .f32)) y init Gen.reducesTo_S131072x64_S131072_d1 Gen.h_S_ (ix1 i)
      = (Finset.univ : Finset (Fin 64)).fold max (init (Shape.Idx.first Gen.h_S_)) (fun j => y (ix2 i j)) := by
  have h : S131072x64.Reduces [1] S131072 := by decide
  rw [Host.reduce_eq_fold_single (FloatOps.maximumf (F := Ideal) (φ := .f32)) y init Gen.reducesTo_S131072x64_S131072_d1
    h Gen.h_S_ (ix1 i)]
  -- the source index over row `i` with `k` on the dropped axis is `(i, k)`
  have hl : ∀ k : Fin 64, h.lift (ix1 i) k = ix2 i k := fun k =>
    funext fun a => Fin.ext (by match a with | ⟨0, _⟩ => rfl | ⟨1, _⟩ => rfl)
  have hf : (y ∘ h.lift (ix1 i)) = fun j : Fin 64 => y (ix2 i j) := funext fun k => congrArg y (hl k)
  rw [hf]
  rfl

/-- The largest logit of row `i`, compared once more with `-inf`. -/
theorem rowMax_eq (x0 : (⟨S131072x512, .f32⟩ : BufTy).Contents (Elt Ideal)) (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) :
    val_main_v11 (F := Ideal) x0 x2 x3 x4 x5 (ix1 i)
      = Cert.Spec.rowMax (cur2 x2) (cur1 x3) (cur2 x4) (cur1 x5) (fun l => x0 (ix2 i l)) := by
  rw [val_main_v11_apply, val_main_v10_apply, val_main_cst_0_apply]
  unfold val_main_v9
  rw [reduce_max_row, val_main_cst_apply]
  have hf : (fun j : Fin 64 => val_main_v8 (F := Ideal) x0 x2 x3 x4 x5 (ix2 i j))
      = Cert.Spec.logit (cur2 x2) (cur1 x3) (cur2 x4) (cur1 x5) (fun l => x0 (ix2 i l)) :=
    funext fun j => logit_eq x0 x2 x3 x4 x5 i j
  rw [hf]
  simp only [Ideal.maximumf_def, Ideal.ofBits_def]
  rfl

/-! ## The softmax of a row -/

/-- The exponential of logit `j` of row `i` less the row's maximum. -/
theorem ex_eq (x0 : (⟨S131072x512, .f32⟩ : BufTy).Contents (Elt Ideal)) (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) (j : Fin 64) :
    val_main_v15 (F := Ideal) x0 x2 x3 x4 x5 (ix2 i j)
      = Cert.Spec.ex (cur2 x2) (cur1 x3) (cur2 x4) (cur1 x5) (fun l => x0 (ix2 i l)) j := by
  rw [val_main_v15_apply, val_main_v14_apply, val_main_v13_apply, val_main_v12_apply]
  have e : idx_main_v12 (idx_main_v13 (ix2 i j)) = ix1 i :=
    funext fun a => Fin.ext (by match a with | ⟨0, _⟩ => rfl)
  rw [e, logit_eq, rowMax_eq]
  simp only [Ideal.hostUnary_exp_def, Ideal.subf_def]
  rfl

/-- The sum of row `i`'s exponentials: the float sum's initial word is zero. -/
theorem sum_eq (x0 : (⟨S131072x512, .f32⟩ : BufTy).Contents (Elt Ideal)) (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) :
    val_main_v16 (F := Ideal) x0 x2 x3 x4 x5 (ix1 i)
      = ∑ j' : Fin 64, Cert.Spec.ex (cur2 x2) (cur1 x3) (cur2 x4) (cur1 x5) (fun l => x0 (ix2 i l)) j' := by
  rw [val_main_v16_apply, val_main_cst_1_apply]
  have e : ∀ k : Fin 64, idx_main_v16 (ix1 i) k = ix2 i k := fun k =>
    funext fun a => Fin.ext (by match a with | ⟨0, _⟩ => rfl | ⟨1, _⟩ => rfl)
  rw [Finset.sum_congr rfl fun k _ => by rw [e k, ex_eq]]
  simp only [Ideal.ofBits_def]
  rw [Ideal.ofBits_zero_f32, zero_add]

/-- Softmax weight `j` of row `i`. -/
theorem sw_eq (x0 : (⟨S131072x512, .f32⟩ : BufTy).Contents (Elt Ideal)) (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) (j : Fin 64) :
    val_main_v19 (F := Ideal) x0 x2 x3 x4 x5 (ix2 i j)
      = Cert.Spec.sw (cur2 x2) (cur1 x3) (cur2 x4) (cur1 x5) (fun l => x0 (ix2 i l)) j := by
  rw [val_main_v19_apply, val_main_v18_apply, val_main_v17_apply]
  have e : idx_main_v17 (idx_main_v18 (ix2 i j)) = ix1 i :=
    funext fun a => Fin.ext (by match a with | ⟨0, _⟩ => rfl)
  rw [e, ex_eq, sum_eq]
  simp only [Ideal.hostDivf_def]
  rfl

theorem ref_sel (x0 : (⟨S131072x512, .f32⟩ : BufTy).Contents (Elt Ideal)) (x1 : (⟨S64x512, .f32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) (d : Fin 512) :
    val_main_v20 (F := Ideal) x0 x1 x2 x3 x4 x5 (ix2 i d)
      = Cert.Spec.sel (cur2 x2) (cur1 x3) (cur2 x4) (cur1 x5) (cur2 x1) (fun l => x0 (ix2 i l)) d := by
  rw [val_main_v20_apply]
  have e1 : ∀ k : Fin 64, lidx_main_v20 (ix2 i d) k = ix2 i k := fun k =>
    funext fun a => Fin.ext (by match a with | ⟨0, _⟩ => rfl | ⟨1, _⟩ => rfl)
  have e2 : ∀ k : Fin 64, ridx_main_v20 (ix2 i d) k = ix2 k d := fun k =>
    funext fun a => Fin.ext (by match a with | ⟨0, _⟩ => rfl | ⟨1, _⟩ => rfl)
  rw [Finset.sum_congr rfl fun k _ => by rw [e1 k, e2 k, sw_eq]]
  rfl

/-! ## The row followed by its selected state, and the update -/

/-- Entry `k` of row `i` of the concatenation: the row's own entry below 512, the selected state's entry `k - 512`
    from there on. -/
theorem comb_eq (x0 : (⟨S131072x512, .f32⟩ : BufTy).Contents (Elt Ideal)) (x1 : (⟨S64x512, .f32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (i : Fin 131072) (k : Fin 1024) :
    val_main_v21 (F := Ideal) x0 x1 x2 x3 x4 x5 (ix2 i k)
      = Cert.Spec.comb (cur2 x2) (cur1 x3) (cur2 x4) (cur1 x5) (cur2 x1) (fun l => x0 (ix2 i l)) k := by
  unfold val_main_v21 Cert.Spec.comb
  by_cases h : k.val < 512
  · rw [dif_pos h]
    exact concatenate_pair_apply_left (t := S131072x1024) (s₁ := S131072x512) (s₂ := S131072x512) 1 x0
      (val_main_v20 (F := Ideal) x0 x1 x2 x3 x4 x5) Gen.concatenates_S131072x512_S131072x512_S131072x1024_d1
      (ix2 i k) rfl (ix2 i ⟨k.val, h⟩) (fun b => by match b with | ⟨0, _⟩ => rfl | ⟨1, _⟩ => rfl)
  · rw [dif_neg h]
    exact (concatenate_pair_apply_right (t := S131072x1024) (s₁ := S131072x512) (s₂ := S131072x512) 1 x0
      (val_main_v20 (F := Ideal) x0 x1 x2 x3 x4 x5) Gen.concatenates_S131072x512_S131072x512_S131072x1024_d1
      (ix2 i k) rfl rfl (ix2 i ⟨k.val - 512, by have := k.isLt; omega⟩)
      (fun b hb => by match b, hb with | ⟨0, _⟩, _ => rfl | ⟨1, _⟩, hb => exact absurd rfl hb)
      (by show (k.val - 512) + 512 = k.val; omega)).trans (ref_sel x0 x1 x2 x3 x4 x5 i _)

/-- The update row `i` proposes, at entry `d`. -/
theorem upd_eq (x0 : (⟨S131072x512, .f32⟩ : BufTy).Contents (Elt Ideal)) (x1 : (⟨S64x512, .f32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S1024x512, .f32⟩ : BufTy).Contents (Elt Ideal)) (x7 : (⟨S512, .f32⟩ : BufTy).Contents (Elt Ideal))
    (i : Fin 131072) (d : Fin 512) :
    val_main_v26 (F := Ideal) x0 x1 x2 x3 x4 x5 x6 x7 (ix2 i d)
      = Cert.Spec.upd (cur2 x2) (cur1 x3) (cur2 x4) (cur1 x5) (cur2 x1) (cur2 x6) (cur1 x7) (fun l => x0 (ix2 i l)) d := by
  rw [val_main_v26_apply, val_main_v25_apply, val_main_v22_apply, val_main_v24_apply, val_main_v23_apply]
  have e1 : ∀ k : Fin 1024, lidx_main_v22 (ix2 i d) k = ix2 i k := fun k =>
    funext fun a => Fin.ext (by match a with | ⟨0, _⟩ => rfl | ⟨1, _⟩ => rfl)
  have e2 : ∀ k : Fin 1024, ridx_main_v22 (ix2 i d) k = ix2 k d := fun k =>
    funext fun a => Fin.ext (by match a with | ⟨0, _⟩ => rfl | ⟨1, _⟩ => rfl)
  have e3 : idx_main_v23 (idx_main_v24 (ix2 i d)) = ix1 d :=
    funext fun a => Fin.ext (by match a with | ⟨0, _⟩ => rfl)
  rw [e3, Finset.sum_congr rfl fun k _ => by rw [e1 k, e2 k, comb_eq]]
  simp only [Ideal.hostUnary_tanh_def, Ideal.addf_def]
  rfl

theorem ref_new (x0 : (⟨S131072x512, .f32⟩ : BufTy).Contents (Elt Ideal)) (x1 : (⟨S64x512, .f32⟩ : BufTy).Contents (Elt Ideal))
    (x2 : (⟨S512x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S1024x512, .f32⟩ : BufTy).Contents (Elt Ideal)) (x7 : (⟨S512, .f32⟩ : BufTy).Contents (Elt Ideal))
    (j : Fin 64) (d : Fin 512) :
    val_main_v31 (F := Ideal) x0 x1 x2 x3 x4 x5 x6 x7 (ix2 j d)
      = Cert.Spec.newRef (cur2 x2) (cur1 x3) (cur2 x4) (cur1 x5) (cur2 x1) (cur2 x6) (cur1 x7)
          (fun (i : Fin 131072) (l : Fin 512) => x0 (ix2 i l)) j d := by
  rw [val_main_v31_apply, val_main_v30_apply, val_main_v29_apply, val_main_cst_2_apply, val_main_v28_apply]
  -- the transposed weights at `(j, k)` are the weights at `(k, j)`; the contraction runs over all rows `k`
  have e1 : ∀ k : Fin 131072, idx_main_v27 (lidx_main_v28 (ix2 j d) k) = ix2 k j := fun k =>
    funext fun a => Fin.ext (by match a with | ⟨0, _⟩ => rfl | ⟨1, _⟩ => rfl)
  have e2 : ∀ k : Fin 131072, ridx_main_v28 (ix2 j d) k = ix2 k d := fun k =>
    funext fun a => Fin.ext (by match a with | ⟨0, _⟩ => rfl | ⟨1, _⟩ => rfl)
  rw [Finset.sum_congr rfl fun k _ => by rw [val_main_v27_apply, e1 k, e2 k, sw_eq, upd_eq]]
  simp only [Ideal.addf_def, Ideal.mulf_def, Ideal.ofBits_def]
  rfl

end Cert.ReferenceIdeal.RefIs

end
-- ==== Proof.Pieces.lean ====
/-
  What each case of the body leaves in its buffers, as values.

  At every grid point the body stores the block's selected states into the first result's buffer, and the
  accumulator's new contents into the scratch it carries: the old contents plus this block's contribution.  At the
  first point the scratch is zeroed first, so the old contents there are zero; at the last point the body also
  stores the second result: the reference states plus the scaled accumulator.  Each stored value is one pure
  term of the blocks the body loaded (the payloads), which is what the lemmas below say.
-/
import proofs.«165977_j54614804136388_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- The first result's block at the first point: the selected states of the block's rows. -/
theorem out8_A (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) :
    out0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k0_pay5 x0 x2 x3 x4 x5 x1 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The same at a middle point. -/
theorem out8_B (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : ¬cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) (xs0 : Vec F S64x512 .f32) :
    out0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay5 x0 x2 x3 x4 x5 x1 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The same at the last point. -/
theorem out8_C (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) (xs0 : Vec F S64x512 .f32) :
    out0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay5 x0 x2 x3 x4 x5 x1 := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The accumulator after the first point: zeroed, then this block's contribution added. -/
theorem acc_A (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) :
    sout0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 = k0_pay1 x0 (k0_pay4 x0 x2 x3 x4 x5) (k0_pay5 x0 x2 x3 x4 x5 x1) x6 x7 (k0_pay3 (F := F)) := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S64x512) hz2, View.readCov_unit_zero (S := S64x512) _ hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The accumulator after a middle point: what the point before left, plus this block's contribution. -/
theorem acc_B (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : ¬cond0_0 i) (hc1 : ¬cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) (xs0 : Vec F S64x512 .f32) :
    sout0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay1 x0 (k0_pay4 x0 x2 x3 x4 x5) (k0_pay5 x0 x2 x3 x4 x5 x1) x6 x7 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The same at the last point. -/
theorem acc_C (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) (xs0 : Vec F S64x512 .f32) :
    sout0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay1 x0 (k0_pay4 x0 x2 x3 x4 x5) (k0_pay5 x0 x2 x3 x4 x5 x1) x6 x7 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1]

/-- The second result, stored at the last point: the reference states plus the scaled accumulator, the accumulator as this point leaves it. -/
theorem out9_C (c : Dev nD) (i : grid0.Coords) (arg1 : Memref sig .tc .vmem S1024x512 .f32) (harg1 : arg1.IsWhole) (arg2 : Memref sig .tc .vmem S64x512 .f32) (harg2 : arg2.IsWhole) (arg3 : Memref sig .tc .vmem S512x128 .f32) (harg3 : arg3.IsWhole) (arg4 : Memref sig .tc .vmem S128 .f32) (harg4 : arg4.IsWhole) (arg5 : Memref sig .tc .vmem S128x64 .f32) (harg5 : arg5.IsWhole) (arg6 : Memref sig .tc .vmem S64 .f32) (harg6 : arg6.IsWhole) (arg7 : Memref sig .tc .vmem S1024x512 .f32) (harg7 : arg7.IsWhole) (arg8 : Memref sig .tc .vmem S512 .f32) (harg8 : arg8.IsWhole) (arg9 : Memref sig .tc .vmem S1024x512 .f32) (harg9 : arg9.IsWhole) (arg10 : Memref sig .tc .vmem S64x512 .f32) (harg10 : arg10.IsWhole) (arg11 : Memref sig .tc .vmem S64x512 .f32) (harg11 : arg11.IsWhole) (hc0 : ¬cond0_0 i) (hc1 : cond0_1 i) (x0 : Vec F S1024x512 .f32) (x1 : Vec F S64x512 .f32) (x2 : Vec F S512x128 .f32) (x3 : Vec F S128 .f32) (x4 : Vec F S128x64 .f32) (x5 : Vec F S64 .f32) (x6 : Vec F S1024x512 .f32) (x7 : Vec F S512 .f32) (xs0 : Vec F S64x512 .f32) :
    out0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0 = k0_pay2 x1 (k0_pay1 x0 (k0_pay4 x0 x2 x3 x4 x5) (k0_pay5 x0 x2 x3 x4 x5 x1) x6 x7 xs0) := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz2]
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1024x512) hz2, View.ld_unit_zero (S := S64x512) hz2, View.ld_unit_zero (S := S512x128) hz2, View.ld_unit_zero (S := S128x64) hz2, View.ld_unit_zero (S := S128) hz1, View.ld_unit_zero (S := S64) hz1, View.ld_unit_zero (S := S512) hz1, View.readCov_unit_zero (S := S64x512) _ hz2]

end Cert.KernelIdeal.Pieces

end
-- ==== Proof.Blocks.lean ====
/-
  The windows' blocks, point by point, and what the body leaves at a point as a function of them.

  The batch is cut into 128 blocks of 1024 rows: at point `t` the first window's block holds rows
  `1024 t … 1024 t + 1023`, and the first result's window writes the same rows back.  The seven weight
  windows never move: their block is the whole array at every point.
-/
import proofs.«165977_j54614804136388_1_alg».proof.Proof.Gen.KernelIdeal.Value
import proofs.«165977_j54614804136388_1_alg».proof.Proof.Pieces
import proofs.«165977_j54614804136388_1_alg».proof.Proof.Spec
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (m : (ℓ : Loc nD τ sig) → Buf (Elt Ideal) ℓ)

/-! ## The argument arrays, by their literal types -/

abbrev X (c : Dev nD) : Vec Ideal S131072x512 .f32 := V m c main_arg0
abbrev Rf (c : Dev nD) : Vec Ideal S64x512 .f32 := V m c main_arg1
abbrev W1 (c : Dev nD) : Vec Ideal S512x128 .f32 := V m c main_arg2
abbrev B1 (c : Dev nD) : Vec Ideal S128 .f32 := V m c main_arg3
abbrev W2 (c : Dev nD) : Vec Ideal S128x64 .f32 := V m c main_arg4
abbrev B2 (c : Dev nD) : Vec Ideal S64 .f32 := V m c main_arg5
abbrev Wu (c : Dev nD) : Vec Ideal S1024x512 .f32 := V m c main_arg6
abbrev Bu (c : Dev nD) : Vec Ideal S512 .f32 := V m c main_arg7

/-- Grid point `t` as a block number. -/
abbrev blockNo (t : Fin cfg0.N) : Fin 128 := Fin.cast N_0 t

/-! ## The index maps, decided over the grid -/

theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_9.index t (0 : Fin 2) = 0 ∧ win0_9.index t (1 : Fin 2) = 0 :=
  (by decide +kernel : ∀ t : Fin grid0.N, _)

/-! ## The blocks -/

/-- Row `r` of the first window's block at point `t` is row `1024 t + r` of the batch. -/
theorem xblk_apply (c : Dev nD) (t : Fin cfg0.N) (r : Fin 1024) (l : Fin 512) :
    iblk m c 0 t (ix2 r l) = X m c (ix2 (Cert.Spec.rowOf (blockNo t) r) l) := by
  show V m c main_arg0 (((cfg0.win 0).blk t).view.emb (ix2 r l)) = V m c main_arg0 (ix2 (Cert.Spec.rowOf (blockNo t) r) l)
  refine congrArg (V m c main_arg0) ?_
  funext a; apply Fin.ext
  match a with
  | ⟨0, _⟩ => show win0_0.index t (0 : Fin 2) * 1024 + 1 * r.val = 1024 * t.val + r.val; rw [(idx_facts t).1]; omega
  | ⟨1, _⟩ => show win0_0.index t (1 : Fin 2) * 512 + 1 * l.val = l.val; rw [(idx_facts t).2.1]; omega

/-- An entry of the first result's block at point `t` sits in row `1024 t + r` of the array. -/
theorem emb8 (t : Fin cfg0.N) (r : Fin 1024) (d : Fin 512) :
    ((cfg0.win 8).blk t).view.emb (ix2 r d) = (ix2 (Cert.Spec.rowOf (blockNo t) r) d : S131072x512.Idx) := by
  funext a; apply Fin.ext
  match a with
  | ⟨0, _⟩ => show win0_8.index t (0 : Fin 2) * 1024 + 1 * r.val = 1024 * t.val + r.val; rw [(idx_facts t).2.2.1]; omega
  | ⟨1, _⟩ => show win0_8.index t (1 : Fin 2) * 512 + 1 * d.val = d.val; rw [(idx_facts t).2.2.2.1]; omega

/-- The weight windows' blocks are the whole arrays. -/
theorem blk1 (c : Dev nD) (t : Fin cfg0.N) : iblk m c 1 t = Rf m c := by
  funext y
  show V m c main_arg1 (((cfg0.win 1).blk t).view.emb y) = V m c main_arg1 y
  refine congrArg (V m c main_arg1) ?_
  funext a; apply Fin.ext
  match a with
  | ⟨0, _⟩ => show win0_1.index t (0 : Fin 2) * 64 + 1 * (y 0).val = (y 0).val; rw [(idx_facts t).2.2.2.2.1]; omega
  | ⟨1, _⟩ => show win0_1.index t (1 : Fin 2) * 512 + 1 * (y 1).val = (y 1).val; rw [(idx_facts t).2.2.2.2.2.1]; omega

theorem blk2 (c : Dev nD) (t : Fin cfg0.N) : iblk m c 2 t = W1 m c := by
  funext y
  show V m c main_arg2 (((cfg0.win 2).blk t).view.emb y) = V m c main_arg2 y
  refine congrArg (V m c main_arg2) ?_
  funext a; apply Fin.ext
  match a with
  | ⟨0, _⟩ => show win0_2.index t (0 : Fin 2) * 512 + 1 * (y 0).val = (y 0).val; rw [(idx_facts t).2.2.2.2.2.2.1]; omega
  | ⟨1, _⟩ => show win0_2.index t (1 : Fin 2) * 128 + 1 * (y 1).val = (y 1).val; rw [(idx_facts t).2.2.2.2.2.2.2.1]; omega

theorem blk3 (c : Dev nD) (t : Fin cfg0.N) : iblk m c 3 t = B1 m c := by
  funext y
  show V m c main_arg3 (((cfg0.win 3).blk t).view.emb y) = V m c main_arg3 y
  refine congrArg (V m c main_arg3) ?_
  funext a; apply Fin.ext
  match a with
  | ⟨0, _⟩ => show win0_3.index t (0 : Fin 1) * 128 + 1 * (y 0).val = (y 0).val; rw [(idx_facts t).2.2.2.2.2.2.2.2.1]; omega

theorem blk4 (c : Dev nD) (t : Fin cfg0.N) : iblk m c 4 t = W2 m c := by
  funext y
  show V m c main_arg4 (((cfg0.win 4).blk t).view.emb y) = V m c main_arg4 y
  refine congrArg (V m c main_arg4) ?_
  funext a; apply Fin.ext
  match a with
  | ⟨0, _⟩ => show win0_4.index t (0 : Fin 2) * 128 + 1 * (y 0).val = (y 0).val; rw [(idx_facts t).2.2.2.2.2.2.2.2.2.1]; omega
  | ⟨1, _⟩ => show win0_4.index t (1 : Fin 2) * 64 + 1 * (y 1).val = (y 1).val; rw [(idx_facts t).2.2.2.2.2.2.2.2.2.2.1]; omega

theorem blk5 (c : Dev nD) (t : Fin cfg0.N) : iblk m c 5 t = B2 m c := by
  funext y
  show V m c main_arg5 (((cfg0.win 5).blk t).view.emb y) = V m c main_arg5 y
  refine congrArg (V m c main_arg5) ?_
  funext a; apply Fin.ext
  match a with
  | ⟨0, _⟩ => show win0_5.index t (0 : Fin 1) * 64 + 1 * (y 0).val = (y 0).val; rw [(idx_facts t).2.2.2.2.2.2.2.2.2.2.2.1]; omega

theorem blk6 (c : Dev nD) (t : Fin cfg0.N) : iblk m c 6 t = Wu m c := by
  funext y
  show V m c main_arg6 (((cfg0.win 6).blk t).view.emb y) = V m c main_arg6 y
  refine congrArg (V m c main_arg6) ?_
  funext a; apply Fin.ext
  match a with
  | ⟨0, _⟩ => show win0_6.index t (0 : Fin 2) * 1024 + 1 * (y 0).val = (y 0).val; rw [(idx_facts t).2.2.2.2.2.2.2.2.2.2.2.2.1]; omega
  | ⟨1, _⟩ => show win0_6.index t (1 : Fin 2) * 512 + 1 * (y 1).val = (y 1).val; rw [(idx_facts t).2.2.2.2.2.2.2.2.2.2.2.2.2.1]; omega

theorem blk7 (c : Dev nD) (t : Fin cfg0.N) : iblk m c 7 t = Bu m c := by
  funext y
  show V m c main_arg7 (((cfg0.win 7).blk t).view.emb y) = V m c main_arg7 y
  refine congrArg (V m c main_arg7) ?_
  funext a; apply Fin.ext
  match a with
  | ⟨0, _⟩ => show win0_7.index t (0 : Fin 1) * 512 + 1 * (y 0).val = (y 0).val; rw [(idx_facts t).2.2.2.2.2.2.2.2.2.2.2.2.2.2.1]; omega

/-! ## What a point leaves, as payloads of its blocks -/

/-- After any point the first result's buffer holds the selected states of the point's rows. -/
theorem out8_at (c : Dev nD) (t : Fin cfg0.N) :
    (outsAt0 m c t.val t.isLt).1 = k0_pay5 (iblk m c 0 t) (iblk m c 2 t) (iblk m c 3 t) (iblk m c 4 t) (iblk m c 5 t) (iblk m c 1 t) := by
  have hN : t.val < 128 := lt_of_lt_of_eq t.isLt N_0
  by_cases h0 : t.val % 128 = 0
  · have h1 : ¬t.val % 128 = 127 := by omega
    rw [outsAt0_A m c t h0 h1]
    dsimp only
    exact Pieces.out8_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)
  · by_cases h1 : t.val % 128 = 127
    · rw [outsAt0_C m c t h0 h1]
      dsimp only
      exact Pieces.out8_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _
    · rw [outsAt0_B m c t h0 h1]
      dsimp only
      exact Pieces.out8_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) _

end Cert.KernelIdeal.Blocks

end
-- ==== Proof.KPay.lean ====
/-
  The kernel body's stored values, read at an index: each is the row-wise specification at the rows of
  the block it was computed from.

  A block is 1024 rows.  The body's arithmetic is a chain of whole-array operations; read at one entry,
  every pointwise operation is the operation on the entries, a product of matrices is the sum over the
  contracted coordinate, a reduction along the columns is the sum (or the maximum) over the row, and
  the layout operations only say where an entry comes from.  Reading the chain entry by entry gives
  the specification's formulas, row by row.
-/
import proofs.«165977_j54614804136388_1_alg».proof.Proof.Gen.KernelIdeal.Skeleton
import proofs.«165977_j54614804136388_1_alg».proof.Proof.Spec
import proofs.«165977_j54614804136388_1_alg».proof.Proof.Coords
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx Cert.Coords

/-! ## A column of row values: `[a] → [a, 1] → [a, b]` -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a vector of row values laid out as a column and repeated along the rows reads, at `(p, c)`, the value of row `p`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

/-- And a vector laid out as one row and repeated down the rows reads, at `(p, c)`, its entry `c`. -/
theorem row_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

end Layout

/-! ## The two reductions along a row of 64 logits -/

/-- The sum along the columns, read at row `p`: the sum of the row's 64 entries. -/
theorem rowSum_apply (e : FVec Ideal S1024x64 .f32) (p : Fin 1024) :
    multiReduction (F := Ideal) .add [1] S1024 e 0x00000000#32 reduces_S1024x64_S1024 (.inl rfl) rfl (ix1 p)
      = ∑ k : Fin 64, e (ix2 p k) := by
  refine (Ideal.multiReduction_add_single _ _ _ _ _ _).trans ?_
  refine Finset.sum_congr rfl fun k _ => congrArg e (funext fun a => Fin.ext ?_)
  match a with
  | ⟨0, _⟩ => rfl
  | ⟨1, _⟩ => rfl

/-- The maximum along the columns, read at row `p`: the fold of `max` over the row's 64 entries, from `-inf`. -/
theorem rowMax_apply (l : FVec Ideal S1024x64 .f32) (p : Fin 1024) :
    multiReduction (F := Ideal) .maximumf [1] S1024 l 0xFF800000#32 reduces_S1024x64_S1024 (.inl rfl) rfl (ix1 p)
      = (Finset.univ : Finset (Fin 64)).fold max (Ideal.ofBits .f32 0xFF800000#32) (fun k => l (ix2 p k)) := by
  refine (Ideal.multiReduction_maximumf_single _ _ _ _ _ _).trans ?_
  refine congrArg (fun f => (Finset.univ : Finset (Fin 64)).fold max (Ideal.ofBits .f32 0xFF800000#32) f) ?_
  funext k
  refine congrArg l (funext fun a => Fin.ext ?_)
  match a with
  | ⟨0, _⟩ => rfl
  | ⟨1, _⟩ => rfl

/-! ## The five products of matrices, read at an entry

Each is the sum, over the one contracted coordinate, of the products of the operands' entries.  For each product:
where its two operands are read (four coordinate equations), then the sum re-indexed by the contracted coordinate. -/

/-! ### `x · w1`: `[1024, 512] × [512, 128]` -/

theorem lhs_xw1_0 (i : S1024x128.Idx) (q : dot_S1024x512_S512x128_S1024x128_1_0_0_1_n_n.contr.Idx) :
    (dot_S1024x512_S512x128_S1024x128_1_0_0_1_n_n.lhsIdx i q 0).val = (i 0).val := by
  unfold DotDims.lhsIdx
  rw [dif_neg (show ¬(0 : Fin S1024x512.rank) ∈ dot_S1024x512_S512x128_S1024x128_1_0_0_1_n_n.lhsBatch by decide), dif_pos (show (0 : Fin S1024x512.rank) ∈ dot_S1024x512_S512x128_S1024x128_1_0_0_1_n_n.lhsNonContracting by decide)]
  rfl
theorem lhs_xw1_1 (i : S1024x128.Idx) (q : dot_S1024x512_S512x128_S1024x128_1_0_0_1_n_n.contr.Idx) :
    (dot_S1024x512_S512x128_S1024x128_1_0_0_1_n_n.lhsIdx i q 1).val = (q ⟨0, by decide⟩).val :=
  dot_S1024x512_S512x128_S1024x128_1_0_0_1_n_n.lhsIdx_val_of_single rfl i q
theorem rhs_xw1_0 (i : S1024x128.Idx) (q : dot_S1024x512_S512x128_S1024x128_1_0_0_1_n_n.contr.Idx) :
    (dot_S1024x512_S512x128_S1024x128_1_0_0_1_n_n.rhsIdx i q 0).val = (q ⟨0, by decide⟩).val :=
  dot_S1024x512_S512x128_S1024x128_1_0_0_1_n_n.rhsIdx_val_of_single rfl i q
theorem rhs_xw1_1 (i : S1024x128.Idx) (q : dot_S1024x512_S512x128_S1024x128_1_0_0_1_n_n.contr.Idx) :
    (dot_S1024x512_S512x128_S1024x128_1_0_0_1_n_n.rhsIdx i q 1).val = (i 1).val := by
  unfold DotDims.rhsIdx
  rw [dif_neg (show ¬(1 : Fin S512x128.rank) ∈ dot_S1024x512_S512x128_S1024x128_1_0_0_1_n_n.rhsBatch by decide), dif_pos (show (1 : Fin S512x128.rank) ∈ dot_S1024x512_S512x128_S1024x128_1_0_0_1_n_n.rhsNonContracting by decide)]
  rfl

/-- Entry `(p, q)` of `a · b` is `∑ k, a (p, k) * b (k, q)`. -/
theorem mm_xw1_apply {φ₁ φ₂ : FTy} (a : FVec Ideal S1024x512 φ₁) (b : FVec Ideal S512x128 φ₂) (p : Fin 1024) (q : Fin 128) :
    matmul dot_S1024x512_S512x128_S1024x128_1_0_0_1_n_n none a b (constant (F := Ideal) S1024x128 .f32 0x00000000#32) (ix2 p q)
      = ∑ k : Fin 512, a (ix2 p k) * b (ix2 k q) := by
  refine (Ideal.matmul_constant_zero_apply dot_S1024x512_S512x128_S1024x128_1_0_0_1_n_n none a b (ix2 p q)).trans ?_
  rw [← Equiv.sum_comp (contrEquiv1 dot_S1024x512_S512x128_S1024x128_1_0_0_1_n_n 512 rfl rfl).symm]
  refine Finset.sum_congr rfl fun k _ => ?_
  have hk := contrEquiv1_symm_val dot_S1024x512_S512x128_S1024x128_1_0_0_1_n_n 512 rfl rfl k
  have el : dot_S1024x512_S512x128_S1024x128_1_0_0_1_n_n.lhsIdx (ix2 p q) ((contrEquiv1 dot_S1024x512_S512x128_S1024x128_1_0_0_1_n_n 512 rfl rfl).symm k) = ix2 p k := funext fun c => Fin.ext (by
    match c with
    | ⟨0, _⟩ => exact lhs_xw1_0 _ _
    | ⟨1, _⟩ => exact (lhs_xw1_1 _ _).trans hk)
  have er : dot_S1024x512_S512x128_S1024x128_1_0_0_1_n_n.rhsIdx (ix2 p q) ((contrEquiv1 dot_S1024x512_S512x128_S1024x128_1_0_0_1_n_n 512 rfl rfl).symm k) = ix2 k q := funext fun c => Fin.ext (by
    match c with
    | ⟨0, _⟩ => exact (rhs_xw1_0 _ _).trans hk
    | ⟨1, _⟩ => exact rhs_xw1_1 _ _)
  rw [el, er]

/-! ### `hid · w2`: `[1024, 128] × [128, 64]` -/

theorem lhs_hw2_0 (i : S1024x64.Idx) (q : dot_S1024x128_S128x64_S1024x64_1_0_0_1_n_n.contr.Idx) :
    (dot_S1024x128_S128x64_S1024x64_1_0_0_1_n_n.lhsIdx i q 0).val = (i 0).val := by
  unfold DotDims.lhsIdx
  rw [dif_neg (show ¬(0 : Fin S1024x128.rank) ∈ dot_S1024x128_S128x64_S1024x64_1_0_0_1_n_n.lhsBatch by decide), dif_pos (show (0 : Fin S1024x128.rank) ∈ dot_S1024x128_S128x64_S1024x64_1_0_0_1_n_n.lhsNonContracting by decide)]
  rfl
theorem lhs_hw2_1 (i : S1024x64.Idx) (q : dot_S1024x128_S128x64_S1024x64_1_0_0_1_n_n.contr.Idx) :
    (dot_S1024x128_S128x64_S1024x64_1_0_0_1_n_n.lhsIdx i q 1).val = (q ⟨0, by decide⟩).val :=
  dot_S1024x128_S128x64_S1024x64_1_0_0_1_n_n.lhsIdx_val_of_single rfl i q
theorem rhs_hw2_0 (i : S1024x64.Idx) (q : dot_S1024x128_S128x64_S1024x64_1_0_0_1_n_n.contr.Idx) :
    (dot_S1024x128_S128x64_S1024x64_1_0_0_1_n_n.rhsIdx i q 0).val = (q ⟨0, by decide⟩).val :=
  dot_S1024x128_S128x64_S1024x64_1_0_0_1_n_n.rhsIdx_val_of_single rfl i q
theorem rhs_hw2_1 (i : S1024x64.Idx) (q : dot_S1024x128_S128x64_S1024x64_1_0_0_1_n_n.contr.Idx) :
    (dot_S1024x128_S128x64_S1024x64_1_0_0_1_n_n.rhsIdx i q 1).val = (i 1).val := by
  unfold DotDims.rhsIdx
  rw [dif_neg (show ¬(1 : Fin S128x64.rank) ∈ dot_S1024x128_S128x64_S1024x64_1_0_0_1_n_n.rhsBatch by decide), dif_pos (show (1 : Fin S128x64.rank) ∈ dot_S1024x128_S128x64_S1024x64_1_0_0_1_n_n.rhsNonContracting by decide)]
  rfl

/-- Entry `(p, q)` of `a · b` is `∑ k, a (p, k) * b (k, q)`. -/
theorem mm_hw2_apply {φ₁ φ₂ : FTy} (a : FVec Ideal S1024x128 φ₁) (b : FVec Ideal S128x64 φ₂) (p : Fin 1024) (q : Fin 64) :
    matmul dot_S1024x128_S128x64_S1024x64_1_0_0_1_n_n none a b (constant (F := Ideal) S1024x64 .f32 0x00000000#32) (ix2 p q)
      = ∑ k : Fin 128, a (ix2 p k) * b (ix2 k q) := by
  refine (Ideal.matmul_constant_zero_apply dot_S1024x128_S128x64_S1024x64_1_0_0_1_n_n none a b (ix2 p q)).trans ?_
  rw [← Equiv.sum_comp (contrEquiv1 dot_S1024x128_S128x64_S1024x64_1_0_0_1_n_n 128 rfl rfl).symm]
  refine Finset.sum_congr rfl fun k _ => ?_
  have hk := contrEquiv1_symm_val dot_S1024x128_S128x64_S1024x64_1_0_0_1_n_n 128 rfl rfl k
  have el : dot_S1024x128_S128x64_S1024x64_1_0_0_1_n_n.lhsIdx (ix2 p q) ((contrEquiv1 dot_S1024x128_S128x64_S1024x64_1_0_0_1_n_n 128 rfl rfl).symm k) = ix2 p k := funext fun c => Fin.ext (by
    match c with
    | ⟨0, _⟩ => exact lhs_hw2_0 _ _
    | ⟨1, _⟩ => exact (lhs_hw2_1 _ _).trans hk)
  have er : dot_S1024x128_S128x64_S1024x64_1_0_0_1_n_n.rhsIdx (ix2 p q) ((contrEquiv1 dot_S1024x128_S128x64_S1024x64_1_0_0_1_n_n 128 rfl rfl).symm k) = ix2 k q := funext fun c => Fin.ext (by
    match c with
    | ⟨0, _⟩ => exact (rhs_hw2_0 _ _).trans hk
    | ⟨1, _⟩ => exact rhs_hw2_1 _ _)
  rw [el, er]

/-! ### `softmax · ref`: `[1024, 64] × [64, 512]` -/

theorem lhs_swref_0 (i : S1024x512.Idx) (q : dot_S1024x64_S64x512_S1024x512_1_0_0_1_n_n.contr.Idx) :
    (dot_S1024x64_S64x512_S1024x512_1_0_0_1_n_n.lhsIdx i q 0).val = (i 0).val := by
  unfold DotDims.lhsIdx
  rw [dif_neg (show ¬(0 : Fin S1024x64.rank) ∈ dot_S1024x64_S64x512_S1024x512_1_0_0_1_n_n.lhsBatch by decide), dif_pos (show (0 : Fin S1024x64.rank) ∈ dot_S1024x64_S64x512_S1024x512_1_0_0_1_n_n.lhsNonContracting by decide)]
  rfl
theorem lhs_swref_1 (i : S1024x512.Idx) (q : dot_S1024x64_S64x512_S1024x512_1_0_0_1_n_n.contr.Idx) :
    (dot_S1024x64_S64x512_S1024x512_1_0_0_1_n_n.lhsIdx i q 1).val = (q ⟨0, by decide⟩).val :=
  dot_S1024x64_S64x512_S1024x512_1_0_0_1_n_n.lhsIdx_val_of_single rfl i q
theorem rhs_swref_0 (i : S1024x512.Idx) (q : dot_S1024x64_S64x512_S1024x512_1_0_0_1_n_n.contr.Idx) :
    (dot_S1024x64_S64x512_S1024x512_1_0_0_1_n_n.rhsIdx i q 0).val = (q ⟨0, by decide⟩).val :=
  dot_S1024x64_S64x512_S1024x512_1_0_0_1_n_n.rhsIdx_val_of_single rfl i q
theorem rhs_swref_1 (i : S1024x512.Idx) (q : dot_S1024x64_S64x512_S1024x512_1_0_0_1_n_n.contr.Idx) :
    (dot_S1024x64_S64x512_S1024x512_1_0_0_1_n_n.rhsIdx i q 1).val = (i 1).val := by
  unfold DotDims.rhsIdx
  rw [dif_neg (show ¬(1 : Fin S64x512.rank) ∈ dot_S1024x64_S64x512_S1024x512_1_0_0_1_n_n.rhsBatch by decide), dif_pos (show (1 : Fin S64x512.rank) ∈ dot_S1024x64_S64x512_S1024x512_1_0_0_1_n_n.rhsNonContracting by decide)]
  rfl

/-- Entry `(p, q)` of `a · b` is `∑ k, a (p, k) * b (k, q)`. -/
theorem mm_swref_apply {φ₁ φ₂ : FTy} (a : FVec Ideal S1024x64 φ₁) (b : FVec Ideal S64x512 φ₂) (p : Fin 1024) (q : Fin 512) :
    matmul dot_S1024x64_S64x512_S1024x512_1_0_0_1_n_n none a b (constant (F := Ideal) S1024x512 .f32 0x00000000#32) (ix2 p q)
      = ∑ k : Fin 64, a (ix2 p k) * b (ix2 k q) := by
  refine (Ideal.matmul_constant_zero_apply dot_S1024x64_S64x512_S1024x512_1_0_0_1_n_n none a b (ix2 p q)).trans ?_
  rw [← Equiv.sum_comp (contrEquiv1 dot_S1024x64_S64x512_S1024x512_1_0_0_1_n_n 64 rfl rfl).symm]
  refine Finset.sum_congr rfl fun k _ => ?_
  have hk := contrEquiv1_symm_val dot_S1024x64_S64x512_S1024x512_1_0_0_1_n_n 64 rfl rfl k
  have el : dot_S1024x64_S64x512_S1024x512_1_0_0_1_n_n.lhsIdx (ix2 p q) ((contrEquiv1 dot_S1024x64_S64x512_S1024x512_1_0_0_1_n_n 64 rfl rfl).symm k) = ix2 p k := funext fun c => Fin.ext (by
    match c with
    | ⟨0, _⟩ => exact lhs_swref_0 _ _
    | ⟨1, _⟩ => exact (lhs_swref_1 _ _).trans hk)
  have er : dot_S1024x64_S64x512_S1024x512_1_0_0_1_n_n.rhsIdx (ix2 p q) ((contrEquiv1 dot_S1024x64_S64x512_S1024x512_1_0_0_1_n_n 64 rfl rfl).symm k) = ix2 k q := funext fun c => Fin.ext (by
    match c with
    | ⟨0, _⟩ => exact (rhs_swref_0 _ _).trans hk
    | ⟨1, _⟩ => exact rhs_swref_1 _ _)
  rw [el, er]

/-! ### `[x, selected] · wu`: `[1024, 1024] × [1024, 512]` -/

theorem lhs_cwu_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem lhs_cwu_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q
theorem rhs_cwu_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q
theorem rhs_cwu_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl

/-- Entry `(p, q)` of `a · b` is `∑ k, a (p, k) * b (k, q)`. -/
theorem mm_cwu_apply {φ₁ φ₂ : FTy} (a : FVec Ideal S1024x1024 φ₁) (b : FVec Ideal S1024x512 φ₂) (p : Fin 1024) (q : Fin 512) :
    matmul dot_S1024x1024_S1024x512_S1024x512_1_0_0_1_n_n none a b (constant (F := Ideal) S1024x512 .f32 0x00000000#32) (ix2 p q)
      = ∑ k : Fin 1024, a (ix2 p k) * b (ix2 k q) := by
  refine (Ideal.matmul_constant_zero_apply dot_S1024x1024_S1024x512_S1024x512_1_0_0_1_n_n none a b (ix2 p q)).trans ?_
  rw [← Equiv.sum_comp (contrEquiv1 dot_S1024x1024_S1024x512_S1024x512_1_0_0_1_n_n 1024 rfl rfl).symm]
  refine Finset.sum_congr rfl fun k _ => ?_
  have hk := contrEquiv1_symm_val dot_S1024x1024_S1024x512_S1024x512_1_0_0_1_n_n 1024 rfl rfl k
  have el : dot_S1024x1024_S1024x512_S1024x512_1_0_0_1_n_n.lhsIdx (ix2 p q) ((contrEquiv1 dot_S1024x1024_S1024x512_S1024x512_1_0_0_1_n_n 1024 rfl rfl).symm k) = ix2 p k := funext fun c => Fin.ext (by
    match c with
    | ⟨0, _⟩ => exact lhs_cwu_0 _ _
    | ⟨1, _⟩ => exact (lhs_cwu_1 _ _).trans hk)
  have er : dot_S1024x1024_S1024x512_S1024x512_1_0_0_1_n_n.rhsIdx (ix2 p q) ((contrEquiv1 dot_S1024x1024_S1024x512_S1024x512_1_0_0_1_n_n 1024 rfl rfl).symm k) = ix2 k q := funext fun c => Fin.ext (by
    match c with
    | ⟨0, _⟩ => exact (rhs_cwu_0 _ _).trans hk
    | ⟨1, _⟩ => exact rhs_cwu_1 _ _)
  rw [el, er]

/-! ### `softmaxᵀ · update`: `[1024, 64]` and `[1024, 512]`, both contracted along the rows -/

theorem lhs_swupd_0 (i : S64x512.Idx) (q : dot_S1024x64_S1024x512_S64x512_0_0_1_1_n_n.contr.Idx) :
    (dot_S1024x64_S1024x512_S64x512_0_0_1_1_n_n.lhsIdx i q 0).val = (q ⟨0, by decide⟩).val :=
  dot_S1024x64_S1024x512_S64x512_0_0_1_1_n_n.lhsIdx_val_of_single rfl i q
theorem lhs_swupd_1 (i : S64x512.Idx) (q : dot_S1024x64_S1024x512_S64x512_0_0_1_1_n_n.contr.Idx) :
    (dot_S1024x64_S1024x512_S64x512_0_0_1_1_n_n.lhsIdx i q 1).val = (i 0).val := by
  unfold DotDims.lhsIdx
  rw [dif_neg (show ¬(1 : Fin S1024x64.rank) ∈ dot_S1024x64_S1024x512_S64x512_0_0_1_1_n_n.lhsBatch by decide), dif_pos (show (1 : Fin S1024x64.rank) ∈ dot_S1024x64_S1024x512_S64x512_0_0_1_1_n_n.lhsNonContracting by decide)]
  rfl
theorem rhs_swupd_0 (i : S64x512.Idx) (q : dot_S1024x64_S1024x512_S64x512_0_0_1_1_n_n.contr.Idx) :
    (dot_S1024x64_S1024x512_S64x512_0_0_1_1_n_n.rhsIdx i q 0).val = (q ⟨0, by decide⟩).val :=
  dot_S1024x64_S1024x512_S64x512_0_0_1_1_n_n.rhsIdx_val_of_single rfl i q
theorem rhs_swupd_1 (i : S64x512.Idx) (q : dot_S1024x64_S1024x512_S64x512_0_0_1_1_n_n.contr.Idx) :
    (dot_S1024x64_S1024x512_S64x512_0_0_1_1_n_n.rhsIdx i q 1).val = (i 1).val := by
  unfold DotDims.rhsIdx
  rw [dif_neg (show ¬(1 : Fin S1024x512.rank) ∈ dot_S1024x64_S1024x512_S64x512_0_0_1_1_n_n.rhsBatch by decide), dif_pos (show (1 : Fin S1024x512.rank) ∈ dot_S1024x64_S1024x512_S64x512_0_0_1_1_n_n.rhsNonContracting by decide)]
  rfl

/-- Entry `(p, q)` of `aᵀ · b` is `∑ k, a (k, p) * b (k, q)`. -/
theorem mm_swupd_apply {φ₁ φ₂ : FTy} (a : FVec Ideal S1024x64 φ₁) (b : FVec Ideal S1024x512 φ₂) (p : Fin 64) (q : Fin 512) :
    matmul dot_S1024x64_S1024x512_S64x512_0_0_1_1_n_n none a b (constant (F := Ideal) S64x512 .f32 0x00000000#32) (ix2 p q)
      = ∑ k : Fin 1024, a (ix2 k p) * b (ix2 k q) := by
  refine (Ideal.matmul_constant_zero_apply dot_S1024x64_S1024x512_S64x512_0_0_1_1_n_n none a b (ix2 p q)).trans ?_
  rw [← Equiv.sum_comp (contrEquiv1 dot_S1024x64_S1024x512_S64x512_0_0_1_1_n_n 1024 rfl rfl).symm]
  refine Finset.sum_congr rfl fun k _ => ?_
  have hk := contrEquiv1_symm_val dot_S1024x64_S1024x512_S64x512_0_0_1_1_n_n 1024 rfl rfl k
  have el : dot_S1024x64_S1024x512_S64x512_0_0_1_1_n_n.lhsIdx (ix2 p q) ((contrEquiv1 dot_S1024x64_S1024x512_S64x512_0_0_1_1_n_n 1024 rfl rfl).symm k) = ix2 k p := funext fun c => Fin.ext (by
    match c with
    | ⟨0, _⟩ => exact (lhs_swupd_0 _ _).trans hk
    | ⟨1, _⟩ => exact lhs_swupd_1 _ _)
  have er : dot_S1024x64_S1024x512_S64x512_0_0_1_1_n_n.rhsIdx (ix2 p q) ((contrEquiv1 dot_S1024x64_S1024x512_S64x512_0_0_1_1_n_n 1024 rfl rfl).symm k) = ix2 k q := funext fun c => Fin.ext (by
    match c with
    | ⟨0, _⟩ => exact (rhs_swupd_0 _ _).trans hk
    | ⟨1, _⟩ => exact rhs_swupd_1 _ _)
  rw [el, er]

/-! ## The exponential and the hyperbolic tangent of an array, read at an entry -/

theorem exp_apply {s : Shape} {φ : FTy} (a : FVec Ideal s φ) (i : s.Idx) : exp a i = Ideal.exp (a i) := rfl
theorem tanh_apply {s : Shape} {φ : FTy} (a : FVec Ideal s φ) (i : s.Idx) : tanh a i = Ideal.tanh (a i) := rfl

/-! ## The block's arrays on the way to the softmax weights -/

/-- The block's hidden units: `max (x · w1 + b1) 0`, the bias one row laid under every row. -/
def hidB (x : FVec Ideal S1024x512 .f32) (w1 : FVec Ideal S512x128 .f32) (b1 : FVec Ideal S128 .f32) : FVec Ideal S1024x128 .f32 :=
  maximumf
    (addf
      (matmul dot_S1024x512_S512x128_S1024x128_1_0_0_1_n_n none (truncf .bf16 x bitsLt_bf16_f32) (truncf .bf16 w1 bitsLt_bf16_f32)
        (constant (F := Ideal) S1024x128 .f32 0x00000000#32))
      (broadcastTo S1024x128 (shapeCast S1x128 b1 shapeCasts_S128_S1x128) broadcasts_S1x128_S1024x128))
    (broadcast S1024x128 (Scalar.ofBits (F := Ideal) .f32 0x00000000#32))

/-- The block's logits: `hid · w2 + b2`. -/
def logitB (x : FVec Ideal S1024x512 .f32) (w1 : FVec Ideal S512x128 .f32) (b1 : FVec Ideal S128 .f32)
    (w2 : FVec Ideal S128x64 .f32) (b2 : FVec Ideal S64 .f32) : FVec Ideal S1024x64 .f32 :=
  addf
    (matmul dot_S1024x128_S128x64_S1024x64_1_0_0_1_n_n none (truncf .bf16 (hidB x w1 b1) bitsLt_bf16_f32) (truncf .bf16 w2 bitsLt_bf16_f32)
      (constant (F := Ideal) S1024x64 .f32 0x00000000#32))
    (broadcastTo S1024x64 (shapeCast S1x64 b2 shapeCasts_S64_S1x64) broadcasts_S1x64_S1024x64)

/-- Each row's largest logit (compared with `-inf` once more). -/
def maxB (x : FVec Ideal S1024x512 .f32) (w1 : FVec Ideal S512x128 .f32) (b1 : FVec Ideal S128 .f32)
    (w2 : FVec Ideal S128x64 .f32) (b2 : FVec Ideal S64 .f32) : FVec Ideal S1024 .f32 :=
  maximumf (broadcast S1024 (Scalar.ofBits (F := Ideal) .f32 0xFF800000#32))
    (multiReduction (F := Ideal) .maximumf [1] S1024 (logitB x w1 b1 w2 b2) 0xFF800000#32 reduces_S1024x64_S1024 (.inl rfl) rfl)

/-- The exponentials of the logits less their row's maximum. -/
def exB (x : FVec Ideal S1024x512 .f32) (w1 : FVec Ideal S512x128 .f32) (b1 : FVec Ideal S128 .f32)
    (w2 : FVec Ideal S128x64 .f32) (b2 : FVec Ideal S64 .f32) : FVec Ideal S1024x64 .f32 :=
  exp (subf (logitB x w1 b1 w2 b2)
    (broadcastTo S1024x64 (shapeCast S1024x1 (maxB x w1 b1 w2 b2) shapeCasts_S1024_S1024x1) broadcasts_S1024x1_S1024x64))

/-- Each row's sum of exponentials. -/
def sumB (x : FVec Ideal S1024x512 .f32) (w1 : FVec Ideal S512x128 .f32) (b1 : FVec Ideal S128 .f32)
    (w2 : FVec Ideal S128x64 .f32) (b2 : FVec Ideal S64 .f32) : FVec Ideal S1024 .f32 :=
  multiReduction (F := Ideal) .add [1] S1024 (exB x w1 b1 w2 b2) 0x00000000#32 reduces_S1024x64_S1024 (.inl rfl) rfl

/-- The stored softmax weights are the exponentials over their row's sum. -/
theorem pay4_eq (x : FVec Ideal S1024x512 .f32) (w1 : FVec Ideal S512x128 .f32) (b1 : FVec Ideal S128 .f32)
    (w2 : FVec Ideal S128x64 .f32) (b2 : FVec Ideal S64 .f32) :
    k0_pay4 (F := Ideal) x w1 b1 w2 b2
      = truncf .bf16 (divf (exB x w1 b1 w2 b2)
          (broadcastTo S1024x64 (shapeCast S1024x1 (sumB x w1 b1 w2 b2) shapeCasts_S1024_S1024x1) broadcasts_S1024x1_S1024x64))
          bitsLt_bf16_f32 := rfl

section Rows
variable (x : FVec Ideal S1024x512 .f32) (w1 : FVec Ideal S512x128 .f32) (b1 : FVec Ideal S128 .f32)
  (w2 : FVec Ideal S128x64 .f32) (b2 : FVec Ideal S64 .f32) (p : Fin 1024)

/-- Row `p`'s hidden units are the specification's at that row. -/
theorem hidB_apply (k : Fin 128) :
    hidB x w1 b1 (ix2 p k) = Cert.Spec.hid (cur2 w1) (cur1 b1) (fun l => x (ix2 p l)) k := by
  unfold hidB
  rw [maximumf_apply, addf_apply, mm_xw1_apply, row_apply, broadcast_apply]
  rfl

/-- Row `p`'s logits. -/
theorem logitB_apply (j : Fin 64) :
    logitB x w1 b1 w2 b2 (ix2 p j) = Cert.Spec.logit (cur2 w1) (cur1 b1) (cur2 w2) (cur1 b2) (fun l => x (ix2 p l)) j := by
  unfold logitB Cert.Spec.logit
  rw [addf_apply, mm_hw2_apply, row_apply]
  refine congrArg (· + b2 (ix1 j)) (Finset.sum_congr rfl fun k _ => ?_)
  rw [truncf_apply, truncf_apply, hidB_apply]

/-- Row `p`'s largest logit. -/
theorem maxB_apply :
    maxB x w1 b1 w2 b2 (ix1 p) = Cert.Spec.rowMax (cur2 w1) (cur1 b1) (cur2 w2) (cur1 b2) (fun l => x (ix2 p l)) := by
  unfold maxB Cert.Spec.rowMax
  rw [maximumf_apply, broadcast_apply, rowMax_apply,
    show (fun k => logitB x w1 b1 w2 b2 (ix2 p k)) = Cert.Spec.logit (cur2 w1) (cur1 b1) (cur2 w2) (cur1 b2) (fun l => x (ix2 p l))
      from funext fun k => logitB_apply x w1 b1 w2 b2 p k]
  rfl

/-- Row `p`'s exponentials. -/
theorem exB_apply (j : Fin 64) :
    exB x w1 b1 w2 b2 (ix2 p j) = Cert.Spec.ex (cur2 w1) (cur1 b1) (cur2 w2) (cur1 b2) (fun l => x (ix2 p l)) j := by
  unfold exB Cert.Spec.ex
  rw [exp_apply, subf_apply, column_apply, logitB_apply, maxB_apply]

/-- Row `p`'s sum of exponentials. -/
theorem sumB_apply :
    sumB x w1 b1 w2 b2 (ix1 p) = ∑ j' : Fin 64, Cert.Spec.ex (cur2 w1) (cur1 b1) (cur2 w2) (cur1 b2) (fun l => x (ix2 p l)) j' := by
  unfold sumB
  rw [rowSum_apply]
  exact Finset.sum_congr rfl fun k _ => exB_apply x w1 b1 w2 b2 p k

end Rows

theorem pay4_apply (x : Vec Ideal S1024x512 .f32) (w1 : Vec Ideal S512x128 .f32) (b1 : Vec Ideal S128 .f32)
    (w2 : Vec Ideal S128x64 .f32) (b2 : Vec Ideal S64 .f32) (r : Fin 1024) (j : Fin 64) :
    k0_pay4 (F := Ideal) x w1 b1 w2 b2 (ix2 r j)
      = Cert.Spec.sw (cur2 w1) (cur1 b1) (cur2 w2) (cur1 b2) (fun l => x (ix2 r l)) j := by
  rw [pay4_eq, truncf_apply, divf_apply, column_apply, exB_apply, sumB_apply]
  rfl

theorem pay5_apply (x : Vec Ideal S1024x512 .f32) (w1 : Vec Ideal S512x128 .f32) (b1 : Vec Ideal S128 .f32)
    (w2 : Vec Ideal S128x64 .f32) (b2 : Vec Ideal S64 .f32) (ref : Vec Ideal S64x512 .f32) (r : Fin 1024) (d : Fin 512) :
    k0_pay5 (F := Ideal) x w1 b1 w2 b2 ref (ix2 r d)
      = Cert.Spec.sel (cur2 w1) (cur1 b1) (cur2 w2) (cur1 b2) (cur2 ref) (fun l => x (ix2 r l)) d := by
  unfold k0_pay5 Cert.Spec.sel
  show matmul dot_S1024x64_S64x512_S1024x512_1_0_0_1_n_n none (k0_pay4 (F := Ideal) x w1 b1 w2 b2) (truncf .bf16 ref bitsLt_bf16_f32)
    (constant (F := Ideal) S1024x512 .f32 0x00000000#32) (ix2 r d) = _
  rw [mm_swref_apply]
  refine Finset.sum_congr rfl fun j _ => ?_
  rw [pay4_apply, truncf_apply]

/-! ## The block's updates -/

/-- The block's rows, each followed by its selected state. -/
def combB (x sel : FVec Ideal S1024x512 .f32) : FVec Ideal S1024x1024 .f32 :=
  concatenate S1024x1024 1 [⟨S1024x512, x⟩, ⟨S1024x512, sel⟩] concatenates_S1024x512_S1024x512_S1024x1024_d1

/-- Entry `k` of a joined row: the row's entry `k` below 512, the selected state's entry `k - 512` from there on. -/
theorem combB_apply (x sel : FVec Ideal S1024x512 .f32) (p : Fin 1024) (k : Fin 1024) :
    combB x sel (ix2 p k)
      = if h : k.val < 512 then x (ix2 p ⟨k.val, h⟩) else sel (ix2 p ⟨k.val - 512, by have := k.isLt; omega⟩) := by
  unfold combB
  by_cases h : k.val < 512
  · rw [dif_pos h]
    exact concatenate_pair_apply_left (1 : Fin S1024x1024.rank) x sel concatenates_S1024x512_S1024x512_S1024x1024_d1 (ix2 p k) rfl
      (ix2 p ⟨k.val, h⟩) (fun b => match b with | ⟨0, _⟩ => rfl | ⟨1, _⟩ => rfl)
  · rw [dif_neg h]
    exact concatenate_pair_apply_right (1 : Fin S1024x1024.rank) x sel concatenates_S1024x512_S1024x512_S1024x1024_d1 (ix2 p k) rfl rfl
      (ix2 p ⟨k.val - 512, by have := k.isLt; omega⟩)
      (fun b hb => match b, hb with | ⟨0, _⟩, _ => rfl | ⟨1, _⟩, hb => absurd rfl hb)
      (by show k.val - 512 + 512 = k.val; omega)

/-- The block's updates: `tanh ([x, selected] · wu + bu)`. -/
def updB (x sel wu : FVec Ideal S1024x512 .f32) (bu : FVec Ideal S512 .f32) : FVec Ideal S1024x512 .f32 :=
  tanh
    (addf
      (matmul dot_S1024x1024_S1024x512_S1024x512_1_0_0_1_n_n none (truncf .bf16 (combB x sel) bitsLt_bf16_f32) (truncf .bf16 wu bitsLt_bf16_f32)
        (constant (F := Ideal) S1024x512 .f32 0x00000000#32))
      (broadcastTo S1024x512 (shapeCast S1x512 bu shapeCasts_S512_S1x512) broadcasts_S1x512_S1024x512))

/-- The stored sum: what was there, plus `softmaxᵀ · update`. -/
theorem pay1_eq (x : FVec Ideal S1024x512 .f32) (sw : FVec Ideal S1024x64 .bf16) (sel wu : FVec Ideal S1024x512 .f32)
    (bu : FVec Ideal S512 .f32) (acc : FVec Ideal S64x512 .f32) :
    k0_pay1 (F := Ideal) x sw sel wu bu acc
      = shapeCast S64x512
          (addf acc (matmul dot_S1024x64_S1024x512_S64x512_0_0_1_1_n_n none sw (truncf .bf16 (updB x sel wu bu) bitsLt_bf16_f32)
            (constant (F := Ideal) S64x512 .f32 0x00000000#32)))
          shapeCasts_S64x512_S64x512 := rfl

/-- Row `p`'s update, when the selected states are the stored ones. -/
theorem updB_apply (x : FVec Ideal S1024x512 .f32) (w1 : FVec Ideal S512x128 .f32) (b1 : FVec Ideal S128 .f32)
    (w2 : FVec Ideal S128x64 .f32) (b2 : FVec Ideal S64 .f32) (ref : FVec Ideal S64x512 .f32)
    (wu : FVec Ideal S1024x512 .f32) (bu : FVec Ideal S512 .f32) (p : Fin 1024) (d : Fin 512) :
    updB x (k0_pay5 (F := Ideal) x w1 b1 w2 b2 ref) wu bu (ix2 p d)
      = Cert.Spec.upd (cur2 w1) (cur1 b1) (cur2 w2) (cur1 b2) (cur2 ref) (cur2 wu) (cur1 bu) (fun l => x (ix2 p l)) d := by
  unfold updB Cert.Spec.upd
  rw [tanh_apply, addf_apply, mm_cwu_apply, row_apply]
  refine congrArg (fun s => Ideal.tanh (s + bu (ix1 d))) (Finset.sum_congr rfl fun k _ => ?_)
  rw [truncf_apply, truncf_apply, combB_apply]
  unfold Cert.Spec.comb
  by_cases h : k.val < 512
  · rw [dif_pos h, dif_pos h]
  · rw [dif_neg h, dif_neg h, pay5_apply]

theorem pay1_apply (x : Vec Ideal S1024x512 .f32) (w1 : Vec Ideal S512x128 .f32) (b1 : Vec Ideal S128 .f32)
    (w2 : Vec Ideal S128x64 .f32) (b2 : Vec Ideal S64 .f32) (ref : Vec Ideal S64x512 .f32)
    (wu : Vec Ideal S1024x512 .f32) (bu : Vec Ideal S512 .f32) (acc : Vec Ideal S64x512 .f32) (j : Fin 64) (d : Fin 512) :
    k0_pay1 (F := Ideal) x (k0_pay4 x w1 b1 w2 b2) (k0_pay5 x w1 b1 w2 b2 ref) wu bu acc (ix2 j d)
      = acc (ix2 j d) + ∑ r : Fin 1024,
          Cert.Spec.term (cur2 w1) (cur1 b1) (cur2 w2) (cur1 b2) (cur2 ref) (cur2 wu) (cur1 bu) (fun l => x (ix2 r l)) j d := by
  rw [pay1_eq, shapeCast_self, addf_apply, mm_swupd_apply]
  refine congrArg (acc (ix2 j d) + ·) (Finset.sum_congr rfl fun r _ => ?_)
  rw [pay4_apply, truncf_apply, updB_apply]
  rfl

theorem pay2_apply (ref acc : Vec Ideal S64x512 .f32) (j : Fin 64) (d : Fin 512) :
    k0_pay2 (F := Ideal) ref acc (ix2 j d) = ref (ix2 j d) + Cert.Spec.lrW * acc (ix2 j d) := by
  unfold k0_pay2
  rfl

theorem pay3_apply (j : Fin 64) (d : Fin 512) : k0_pay3 (F := Ideal) (ix2 j d) = 0 := by
  unfold k0_pay3
  exact Ideal.ofBits_zero_f32

end Cert.KernelIdeal.Pay

end
-- ==== Proof.Results.lean ====
/-
  The two result arrays as functions of the eight argument arrays, index by index: the row-wise
  specification read at the index's coordinates.
-/
import proofs.«165977_j54614804136388_1_alg».proof.Proof.Spec
import proofs.«165977_j54614804136388_1_alg».proof.Proof.Coords

noncomputable section

namespace Cert.Results

open Idealize.ShloMosaic Idealize.ShloMosaic.ValueIdx Cert.Coords

/-- The first result: row `i` holds the selected state of row `i` of the batch. -/
def selArr (x : (⟨2, ![131072, 512]⟩ : Shape).Idx → EReal) (ref : (⟨2, ![64, 512]⟩ : Shape).Idx → EReal)
    (w1 : (⟨2, ![512, 128]⟩ : Shape).Idx → EReal) (b1 : (⟨1, ![128]⟩ : Shape).Idx → EReal)
    (w2 : (⟨2, ![128, 64]⟩ : Shape).Idx → EReal) (b2 : (⟨1, ![64]⟩ : Shape).Idx → EReal) :
    (⟨2, ![131072, 512]⟩ : Shape).Idx → EReal := fun i =>
  Cert.Spec.sel (cur2 w1) (cur1 b1) (cur2 w2) (cur1 b2) (cur2 ref) (fun l => x (ix2 (i 0) l)) (i 1)

/-- The second result: the reference states plus the scaled sum over the batch of weight times update. -/
def newArr (x : (⟨2, ![131072, 512]⟩ : Shape).Idx → EReal) (ref : (⟨2, ![64, 512]⟩ : Shape).Idx → EReal)
    (w1 : (⟨2, ![512, 128]⟩ : Shape).Idx → EReal) (b1 : (⟨1, ![128]⟩ : Shape).Idx → EReal)
    (w2 : (⟨2, ![128, 64]⟩ : Shape).Idx → EReal) (b2 : (⟨1, ![64]⟩ : Shape).Idx → EReal)
    (wu : (⟨2, ![1024, 512]⟩ : Shape).Idx → EReal) (bu : (⟨1, ![512]⟩ : Shape).Idx → EReal) :
    (⟨2, ![64, 512]⟩ : Shape).Idx → EReal := fun i =>
  Cert.Spec.newRef (cur2 w1) (cur1 b1) (cur2 w2) (cur1 b2) (cur2 ref) (cur2 wu) (cur1 bu)
    (fun (a : Fin 131072) (l : Fin 512) => x (ix2 a l)) (i 0) (i 1)

end Cert.Results

end
-- ==== Proof.KSel.lean ====
/-
  The first result array after the kernel's run.

  Point `t` writes back the selected states of rows `1024 t … 1024 t + 1023`, each a function of its own
  row of the batch and of the weights only; the 128 blocks tile the array, so the array ends holding, in
  every row, the selected state of that row of the batch.
-/
import proofs.«165977_j54614804136388_1_alg».proof.Proof.Blocks
import proofs.«165977_j54614804136388_1_alg».proof.Proof.KPay
import proofs.«165977_j54614804136388_1_alg».proof.Proof.Results

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KSel

open Cert.KernelIdeal Cert.KernelIdeal.Gen Cert.KernelIdeal.Blocks Cert.Coords

variable (m : (ℓ : Loc nD τ sig) → Buf (Elt Ideal) ℓ)

/-- The selected states of the whole batch, from the arrays as the region finds them. -/
abbrev selOf (c : Dev nD) : Vec Ideal S131072x512 .f32 :=
  Cert.Results.selArr (X m c) (Rf m c) (W1 m c) (B1 m c) (W2 m c) (B2 m c)

/-- What point `t` writes back is block `t` of that array. -/
theorem flushed8_eq (c : Dev nD) (t : Fin cfg0.N) :
    (dats m 0 c).flushed 8 t = ((cfg0.win 8).blk t).view.read (Elt Ideal) (selOf m c) := by
  rw [Cert.KernelIdeal.Value.flushed8, out8_at]
  funext y
  obtain ⟨r, d, rfl⟩ : ∃ (r : Fin 1024) (d : Fin 512), y = ix2 r d := ⟨y 0, y 1, eq_ix2 y⟩
  show k0_pay5 (iblk m c 0 t) (iblk m c 2 t) (iblk m c 3 t) (iblk m c 4 t) (iblk m c 5 t) (iblk m c 1 t) (ix2 r d)
    = selOf m c (((cfg0.win 8).blk t).view.emb (ix2 r d))
  rw [emb8]
  refine (Cert.KernelIdeal.Pay.pay5_apply (iblk m c 0 t) (iblk m c 2 t) (iblk m c 3 t) (iblk m c 4 t) (iblk m c 5 t) (iblk m c 1 t) r d).trans ?_
  rw [blk1, blk2, blk3, blk4, blk5]
  show Cert.Spec.sel (cur2 (W1 m c)) (cur1 (B1 m c)) (cur2 (W2 m c)) (cur1 (B2 m c)) (cur2 (Rf m c)) (fun l => iblk m c 0 t (ix2 r l)) d
    = Cert.Spec.sel (cur2 (W1 m c)) (cur1 (B1 m c)) (cur2 (W2 m c)) (cur1 (B2 m c)) (cur2 (Rf m c)) (fun l => X m c (ix2 (Cert.Spec.rowOf (blockNo t) r) l)) d
  simp only [xblk_apply]

/-- An index of the array is in point `t`'s block iff each coordinate is in the block's range on its axis. -/
theorem mem_blk8 (t : Fin cfg0.N) (i : S131072x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0_0).slice (win0_8.rect t)).set ↔ _
  rw [View.set_slice_whole, Rect.mem_set_unit]
  exact Iff.rfl

/-- The array after the run: the selected states of the whole batch (row `R` lies in block `R / 1024`). -/
theorem final8 (c : Dev nD) : (dats m 0 c).arrAt 8 cfg0.N = selOf m c :=
  (dats m 0 c).arrAt_eq_of_cover 8 (selOf m c) (fun t _ => flushed8_eq m c t) fun i => by
    have hi0 : (i 0).val < 131072 := (i 0).isLt
    have hi1 : (i 1).val < 512 := (i 1).isLt
    have hlt : (i 0).val / 1024 < cfg0.N := by rw [show cfg0.N = 128 from N_0]; omega
    obtain ⟨-, -, e0, e1, -⟩ := idx_facts ⟨(i 0).val / 1024, hlt⟩
    have e0' : win0_8.index ⟨(i 0).val / 1024, hlt⟩ (0 : Fin 2) = (i 0).val / 1024 := e0
    refine ⟨⟨(i 0).val / 1024, hlt⟩, flush0_8 _, ?_⟩
    rw [mem_blk8]
    intro a
    match a with
    | ⟨0, _⟩ =>
      show win0_8.index ⟨(i 0).val / 1024, hlt⟩ (0 : Fin 2) * 1024 ≤ (i 0).val ∧ (i 0).val < win0_8.index ⟨(i 0).val / 1024, hlt⟩ (0 : Fin 2) * 1024 + 1024
      rw [e0']; omega
    | ⟨1, _⟩ =>
      show win0_8.index ⟨(i 0).val / 1024, hlt⟩ (1 : Fin 2) * 512 ≤ (i 1).val ∧ (i 1).val < win0_8.index ⟨(i 0).val / 1024, hlt⟩ (1 : Fin 2) * 512 + 512
      rw [e1]; omega

end Cert.KernelIdeal.KSel

end
-- ==== Proof.KAcc.lean ====
/-
  The second result array after the kernel's run.

  The scratch accumulator starts at zero at the first point and every point adds its block's contribution:
  for reference state `j` and entry `d`, the sum over the block's 1024 rows of the row's softmax weight
  for `j` times the row's update at `d`.  After the last point it therefore holds the sum over all 128
  blocks, which, the extended reals under addition being a commutative monoid, is the sum over all
  131072 rows.  The last point stores the reference states plus the scaled accumulator, and that one
  block is the whole array.
-/
import proofs.«165977_j54614804136388_1_alg».proof.Proof.Blocks
import proofs.«165977_j54614804136388_1_alg».proof.Proof.KPay
import proofs.«165977_j54614804136388_1_alg».proof.Proof.Results

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KAcc

open Cert.KernelIdeal Cert.KernelIdeal.Gen Cert.KernelIdeal.Blocks Cert.Coords

variable (m : (ℓ : Loc nD τ sig) → Buf (Elt Ideal) ℓ)

/-- What block `n` adds to the accumulator (nothing past the grid). -/
def contrib (c : Dev nD) (n : ℕ) : S64x512.Idx → EReal := fun i =>
  if h : n < 128 then
    ∑ r : Fin 1024, Cert.Spec.term (cur2 (W1 m c)) (cur1 (B1 m c)) (cur2 (W2 m c)) (cur1 (B2 m c)) (cur2 (Rf m c)) (cur2 (Wu m c)) (cur1 (Bu m c)) (fun l => X m c (ix2 (Cert.Spec.rowOf ⟨n, h⟩ r) l)) (i 0) (i 1)
  else 0

/-- One point's update of the accumulator, at an entry: what it held plus the block's contribution. -/
theorem step_apply (c : Dev nD) (t : Fin cfg0.N) (acc : Vec Ideal S64x512 .f32) (i : S64x512.Idx) :
    k0_pay1 (iblk m c 0 t) (k0_pay4 (iblk m c 0 t) (iblk m c 2 t) (iblk m c 3 t) (iblk m c 4 t) (iblk m c 5 t))
        (k0_pay5 (iblk m c 0 t) (iblk m c 2 t) (iblk m c 3 t) (iblk m c 4 t) (iblk m c 5 t) (iblk m c 1 t))
        (iblk m c 6 t) (iblk m c 7 t) acc i
      = acc i + contrib m c t.val i := by
  have hN : t.val < 128 := lt_of_lt_of_eq t.isLt N_0
  obtain ⟨j, d, rfl⟩ : ∃ (j : Fin 64) (d : Fin 512), i = ix2 j d := ⟨i 0, i 1, eq_ix2 i⟩
  refine (Cert.KernelIdeal.Pay.pay1_apply (iblk m c 0 t) (iblk m c 2 t) (iblk m c 3 t) (iblk m c 4 t) (iblk m c 5 t) (iblk m c 1 t)
    (iblk m c 6 t) (iblk m c 7 t) acc j d).trans ?_
  rw [blk1, blk2, blk3, blk4, blk5, blk6, blk7]
  unfold contrib
  rw [dif_pos hN]
  simp only [xblk_apply]
  rfl

/-- The accumulator after the first point, at an entry: zero plus the first block's contribution. -/
theorem sc_first (c : Dev nD) (h : 0 < cfg0.N) (junk : Vec Ideal S64x512 .f32) (i : S64x512.Idx) :
    Cert.KernelIdeal.Value.scAt0_0 m c 0 h junk i = 0 + contrib m c 0 i := by
  have h0 : 0 % 128 = 0 := rfl
  have h1 : ¬0 % 128 = 127 := by decide
  unfold Cert.KernelIdeal.Value.scAt0_0
  rw [dif_pos h0, dif_neg h1]
  refine (congrFun (Pieces.acc_A (F := Ideal) c (grid0.coords (⟨0, h⟩ : Fin cfg0.N)) (ms0_0 (⟨0, h⟩ : Fin cfg0.N)) (hs0_0 (⟨0, h⟩ : Fin cfg0.N)) (ms0_1 (⟨0, h⟩ : Fin cfg0.N)) (hs0_1 (⟨0, h⟩ : Fin cfg0.N)) (ms0_2 (⟨0, h⟩ : Fin cfg0.N)) (hs0_2 (⟨0, h⟩ : Fin cfg0.N)) (ms0_3 (⟨0, h⟩ : Fin cfg0.N)) (hs0_3 (⟨0, h⟩ : Fin cfg0.N)) (ms0_4 (⟨0, h⟩ : Fin cfg0.N)) (hs0_4 (⟨0, h⟩ : Fin cfg0.N)) (ms0_5 (⟨0, h⟩ : Fin cfg0.N)) (hs0_5 (⟨0, h⟩ : Fin cfg0.N)) (ms0_6 (⟨0, h⟩ : Fin cfg0.N)) (hs0_6 (⟨0, h⟩ : Fin cfg0.N)) (ms0_7 (⟨0, h⟩ : Fin cfg0.N)) (hs0_7 (⟨0, h⟩ : Fin cfg0.N)) (ms0_8 (⟨0, h⟩ : Fin cfg0.N)) (hs0_8 (⟨0, h⟩ : Fin cfg0.N)) (ms0_9 (⟨0, h⟩ : Fin cfg0.N)) (hs0_9 (⟨0, h⟩ : Fin cfg0.N)) scM0_0 (Memref.isWhole_whole _) ((hcond0_0 (⟨0, h⟩ : Fin cfg0.N)).mpr h0) (fun hq => h1 ((hcond0_1 (⟨0, h⟩ : Fin cfg0.N)).mp hq)) (iblk m c 0 (⟨0, h⟩ : Fin cfg0.N)) (iblk m c 1 (⟨0, h⟩ : Fin cfg0.N)) (iblk m c 2 (⟨0, h⟩ : Fin cfg0.N)) (iblk m c 3 (⟨0, h⟩ : Fin cfg0.N)) (iblk m c 4 (⟨0, h⟩ : Fin cfg0.N)) (iblk m c 5 (⟨0, h⟩ : Fin cfg0.N)) (iblk m c 6 (⟨0, h⟩ : Fin cfg0.N)) (iblk m c 7 (⟨0, h⟩ : Fin cfg0.N))) i).trans ?_
  refine (step_apply m c (⟨0, h⟩ : Fin cfg0.N) (k0_pay3 (F := Ideal)) i).trans ?_
  obtain ⟨j, d, rfl⟩ : ∃ (j : Fin 64) (d : Fin 512), i = ix2 j d := ⟨i 0, i 1, eq_ix2 i⟩
  rw [Cert.KernelIdeal.Pay.pay3_apply]

/-- The accumulator after a later point, at an entry: what the point before left plus this block's contribution. -/
theorem sc_step (c : Dev nD) (n : ℕ) (h : n < cfg0.N) (acc : Vec Ideal S64x512 .f32) (i : S64x512.Idx) (hn : 0 < n) :
    Cert.KernelIdeal.Value.scAt0_0 m c n h acc i = acc i + contrib m c n i := by
  have hN : n < 128 := lt_of_lt_of_eq h N_0
  have h0 : ¬n % 128 = 0 := by omega
  unfold Cert.KernelIdeal.Value.scAt0_0
  rw [dif_neg h0]
  by_cases h1 : n % 128 = 127
  · rw [dif_pos h1]
    refine (congrFun (Pieces.acc_C (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) scM0_0 (Memref.isWhole_whole _) (fun hq => h0 ((hcond0_0 (⟨n, h⟩ : Fin cfg0.N)).mp hq)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) i).trans ?_
    exact step_apply m c (⟨n, h⟩ : Fin cfg0.N) acc i
  · rw [dif_neg h1]
    refine (congrFun (Pieces.acc_B (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) (ms0_5 (⟨n, h⟩ : Fin cfg0.N)) (hs0_5 (⟨n, h⟩ : Fin cfg0.N)) (ms0_6 (⟨n, h⟩ : Fin cfg0.N)) (hs0_6 (⟨n, h⟩ : Fin cfg0.N)) (ms0_7 (⟨n, h⟩ : Fin cfg0.N)) (hs0_7 (⟨n, h⟩ : Fin cfg0.N)) (ms0_8 (⟨n, h⟩ : Fin cfg0.N)) (hs0_8 (⟨n, h⟩ : Fin cfg0.N)) (ms0_9 (⟨n, h⟩ : Fin cfg0.N)) (hs0_9 (⟨n, h⟩ : Fin cfg0.N)) scM0_0 (Memref.isWhole_whole _) (fun hq => h0 ((hcond0_0 (⟨n, h⟩ : Fin cfg0.N)).mp hq)) (fun hq => h1 ((hcond0_1 (⟨n, h⟩ : Fin cfg0.N)).mp hq)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) (iblk m c 4 (⟨n, h⟩ : Fin cfg0.N)) (iblk m c 5 (⟨n, h⟩ : Fin cfg0.N)) (iblk m c 6 (⟨n, h⟩ : Fin cfg0.N)) (iblk m c 7 (⟨n, h⟩ : Fin cfg0.N)) acc) i).trans ?_
    exact step_apply m c (⟨n, h⟩ : Fin cfg0.N) acc i

/-- The accumulator after point `n`, at an entry: the contributions of blocks `0 … n`. -/
theorem acc_after (c : Dev nD) (n : ℕ) (hn : n < cfg0.N) (i : S64x512.Idx) :
    (outsAt0 m c n hn).2.2 i = 0 + ∑ s ∈ Finset.range (n + 1), contrib m c (0 + s) i := by
  have hN : n < 128 := lt_of_lt_of_eq hn N_0
  rw [Cert.KernelIdeal.Value.soutsAt0_0_sweep m c n hn]
  exact Pipeline.accAt_add_apply (fun n h => Cert.KernelIdeal.Value.scAt0_0 m c n h (VS0_0.read (Elt Ideal) VS0_0.junk))
    (Cert.KernelIdeal.Value.scAt0_0 m c) (fun _ => (0 : EReal)) (contrib m c) 0 127
    (fun h i => sc_first m c h _ i)
    (fun k h acc i hk _ => sc_step m c k h acc i hk)
    n (by omega) (by omega) i

/-- The sum over the blocks of their contributions is the sum over all rows. -/
theorem sum_contrib (c : Dev nD) (j : Fin 64) (d : Fin 512) :
    ∑ s ∈ Finset.range 128, contrib m c (0 + s) (ix2 j d)
      = ∑ a : Fin 131072, Cert.Spec.term (cur2 (W1 m c)) (cur1 (B1 m c)) (cur2 (W2 m c)) (cur1 (B2 m c)) (cur2 (Rf m c)) (cur2 (Wu m c)) (cur1 (Bu m c)) (fun l => X m c (ix2 a l)) j d := by
  rw [Cert.Spec.sum_rows, ← Fin.sum_univ_eq_sum_range (fun s => contrib m c (0 + s) (ix2 j d)) 128]
  refine Finset.sum_congr rfl fun s _ => ?_
  have hs : 0 + s.val < 128 := by have := s.isLt; omega
  unfold contrib
  rw [dif_pos hs]
  refine Finset.sum_congr rfl fun r _ => ?_
  have e : (⟨0 + s.val, hs⟩ : Fin 128) = s := Fin.ext (Nat.zero_add _)
  rw [e]

/-- The new reference states, from the arrays as the region finds them. -/
abbrev newOf (c : Dev nD) : Vec Ideal S64x512 .f32 :=
  Cert.Results.newArr (X m c) (Rf m c) (W1 m c) (B1 m c) (W2 m c) (B2 m c) (Wu m c) (Bu m c)

/-- At the last point the second result's buffer holds the reference states plus the scaled accumulator as that
    point leaves it. -/
theorem out9_last (c : Dev nD) (t : Fin cfg0.N) (h0 : ¬t.val % 128 = 0) (h1 : t.val % 128 = 127) :
    (outsAt0 m c t.val t.isLt).2.1 = k0_pay2 (iblk m c 1 t) ((outsAt0 m c t.val t.isLt).2.2) := by
  rw [outsAt0_C m c t h0 h1]
  dsimp only
  exact (Pieces.out9_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).trans
    (congrArg (k0_pay2 (iblk m c 1 t)) (Pieces.acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) _).symm)

/-- An entry of the second result's one block sits at the same place in the array. -/
theorem emb9 (t : Fin cfg0.N) (j : Fin 64) (d : Fin 512) :
    ((cfg0.win 9).blk t).view.emb (ix2 j d) = (ix2 j d : S64x512.Idx) := by
  funext a; apply Fin.ext
  match a with
  | ⟨0, _⟩ => show win0_9.index t (0 : Fin 2) * 64 + 1 * j.val = j.val; rw [(idx_facts t).2.2.2.2.2.2.2.2.2.2.2.2.2.2.2.1]; omega
  | ⟨1, _⟩ => show win0_9.index t (1 : Fin 2) * 512 + 1 * d.val = d.val; rw [(idx_facts t).2.2.2.2.2.2.2.2.2.2.2.2.2.2.2.2]; omega

/-- The one write-back, at the last point, writes the new reference states. -/
theorem flushed9_eq (c : Dev nD) (t : Fin cfg0.N) (hf : (cfg0.win 9).flush t = true) :
    (dats m 0 c).flushed 9 t = ((cfg0.win 9).blk t).view.read (Elt Ideal) (newOf m c) := by
  have hN : t.val < 128 := lt_of_lt_of_eq t.isLt N_0
  have h1 : t.val % 128 = 127 := (flush0_9 t).mp hf
  have h0 : ¬t.val % 128 = 0 := by omega
  rw [Cert.KernelIdeal.Value.flushed9, out9_last m c t h0 h1]
  funext y
  obtain ⟨j, d, rfl⟩ : ∃ (j : Fin 64) (d : Fin 512), y = ix2 j d := ⟨y 0, y 1, eq_ix2 y⟩
  show k0_pay2 (iblk m c 1 t) ((outsAt0 m c t.val t.isLt).2.2) (ix2 j d) = newOf m c (((cfg0.win 9).blk t).view.emb (ix2 j d))
  rw [emb9]
  refine (Cert.KernelIdeal.Pay.pay2_apply (iblk m c 1 t) ((outsAt0 m c t.val t.isLt).2.2) j d).trans ?_
  rw [blk1, acc_after m c t.val t.isLt (ix2 j d), zero_add]
  have e127 : t.val + 1 = 128 := by omega
  rw [e127, sum_contrib]
  rfl

/-- An index of the array is in point `t`'s block iff each coordinate is in the block's range on its axis. -/
theorem mem_blk9 (t : Fin cfg0.N) (i : S64x512.Idx) :
    i ∈ ((cfg0.win 9).blk t).view.set ↔ ∀ a : Fin 2, win0_9.index t a * S64x512.size a ≤ (i a).val ∧ (i a).val < win0_9.index t a * S64x512.size a + S64x512.size a := by
  show i ∈ ((View.whole main_v0_1).slice (win0_9.rect t)).set ↔ _
  rw [View.set_slice_whole, Rect.mem_set_unit]
  exact Iff.rfl

/-- The array after the run: the new reference states (the last point's block is the whole array). -/
theorem final9 (c : Dev nD) : (dats m 0 c).arrAt 9 cfg0.N = newOf m c :=
  (dats m 0 c).arrAt_eq_of_cover 9 (newOf m c) (fun t hf => flushed9_eq m c t hf) fun i => by
    have hi0 : (i 0).val < 64 := (i 0).isLt
    have hi1 : (i 1).val < 512 := (i 1).isLt
    have hlt : 127 < cfg0.N := by rw [show cfg0.N = 128 from N_0]; omega
    have e0 := (idx_facts ⟨127, hlt⟩).2.2.2.2.2.2.2.2.2.2.2.2.2.2.2.1
    have e1 := (idx_facts ⟨127, hlt⟩).2.2.2.2.2.2.2.2.2.2.2.2.2.2.2.2
    refine ⟨⟨127, hlt⟩, (flush0_9 _).mpr rfl, ?_⟩
    rw [mem_blk9]
    intro a
    match a with
    | ⟨0, _⟩ =>
      show win0_9.index ⟨127, hlt⟩ (0 : Fin 2) * 64 ≤ (i 0).val ∧ (i 0).val < win0_9.index ⟨127, hlt⟩ (0 : Fin 2) * 64 + 64
      rw [e0]; omega
    | ⟨1, _⟩ =>
      show win0_9.index ⟨127, hlt⟩ (1 : Fin 2) * 512 ≤ (i 1).val ∧ (i 1).val < win0_9.index ⟨127, hlt⟩ (1 : Fin 2) * 512 + 512
      rw [e1]; omega

end Cert.KernelIdeal.KAcc

end
-- ==== Proof.lean ====
/-
  The certificate of a streaming "select and update reference states" layer against its jnp reference,
  over the extended reals.

  For each row `x` of a batch of 131072 rows the layer computes softmax weights over 64 reference
  states, `sw = softmax (max (x·w1 + b1) 0 · w2 + b2)`, the selected state `sw·ref` (the first result's row),
  and an update `tanh ([x, sw·ref]·wu + bu)`; the second result is `ref + 0.01 · ∑ rows swᵀ · update`.
  The kernel walks the batch in 128 blocks of 1024 rows.  Every quantity of a row depends on that row
  and the weights only, so a block's selected states are the whole array's restricted to the block's
  rows (the first result), and a block's contribution to the accumulated sum is the sum over its own
  rows; the accumulator, zeroed at the first block, ends at the sum over the blocks of the blocks' sums,
  which is the sum over all rows because addition of extended reals is commutative and associative —
  no finiteness of the inputs is used.  Both programs print the same float words (0, -inf, the f32
  nearest 0.01), so no constant has to be evaluated.

  The modules: `Spec` (the row-wise formulas, and the regrouping of a sum over all rows by blocks),
  `KPay` (the kernel's stored values at an entry are those formulas), `RefIs` (so are the reference's two
  results), `Pieces` and `Blocks` (what each grid point stores, as a function of its blocks; where a block
  sits in its array), `KSel` and `KAcc` (the two result arrays after the kernel's run), and here the five
  claims.  The ideal pass rewrote nothing, so `preserves` is `True`.
-/
import proofs.«165977_j54614804136388_1_alg».proof.Defs
import proofs.«165977_j54614804136388_1_alg».proof.Proof.Gen.Kernel
import proofs.«165977_j54614804136388_1_alg».proof.Proof.Gen.Kernel.Skeleton
import proofs.«165977_j54614804136388_1_alg».proof.Proof.Gen.Kernel.Launch
import proofs.«165977_j54614804136388_1_alg».proof.Proof.Gen.Kernel.Points
import proofs.«165977_j54614804136388_1_alg».proof.Proof.Gen.Kernel.Frame
import proofs.«165977_j54614804136388_1_alg».proof.Proof.Gen.KernelIdeal
import proofs.«165977_j54614804136388_1_alg».proof.Proof.Gen.KernelIdeal.Skeleton
import proofs.«165977_j54614804136388_1_alg».proof.Proof.Gen.KernelIdeal.Launch
import proofs.«165977_j54614804136388_1_alg».proof.Proof.Gen.KernelIdeal.Points
import proofs.«165977_j54614804136388_1_alg».proof.Proof.Gen.KernelIdeal.Frame
import proofs.«165977_j54614804136388_1_alg».proof.Proof.Gen.KernelIdeal.Value
import proofs.«165977_j54614804136388_1_alg».proof.Proof.Gen.ReferenceIdeal
import proofs.«165977_j54614804136388_1_alg».proof.Proof.Gen.Pre_finite_inputs
import proofs.«165977_j54614804136388_1_alg».proof.Proof.RefRunPatched
import proofs.«165977_j54614804136388_1_alg».proof.Proof.RefReadPatched
import proofs.«165977_j54614804136388_1_alg».proof.Proof.RefIs
import proofs.«165977_j54614804136388_1_alg».proof.Proof.KSel
import proofs.«165977_j54614804136388_1_alg».proof.Proof.KAcc
import Idealize.ShloMosaic.Adequacy
import Idealize.ShloMosaic.Init

noncomputable section

namespace Cert.Proof

open Idealize.ShloMosaic Idealize.ShloMosaic.TcCoe Idealize.SL.Sem Idealize.ShloMosaic.ValueIdx

/-! ## The reference's two results are the result arrays -/

theorem ref_sel_arr (x0 : (⟨Cert.ReferenceIdeal.S131072x512, .f32⟩ : BufTy).Contents (Elt Ideal)) (x1 : (⟨Cert.ReferenceIdeal.S64x512, .f32⟩ : BufTy).Contents (Elt Ideal))
    (x2 : (⟨Cert.ReferenceIdeal.S512x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal)) :
    Cert.ReferenceIdeal.ReadP.val_main_v20 (F := Ideal) x0 x1 x2 x3 x4 x5 = Cert.Results.selArr x0 x1 x2 x3 x4 x5 := by
  funext i
  obtain ⟨a, d, rfl⟩ : ∃ (a : Fin 131072) (d : Fin 512), i = ix2 a d := ⟨i 0, i 1, eq_ix2 i⟩
  exact Cert.ReferenceIdeal.RefIs.ref_sel x0 x1 x2 x3 x4 x5 a d

theorem ref_new_arr (x0 : (⟨Cert.ReferenceIdeal.S131072x512, .f32⟩ : BufTy).Contents (Elt Ideal)) (x1 : (⟨Cert.ReferenceIdeal.S64x512, .f32⟩ : BufTy).Contents (Elt Ideal))
    (x2 : (⟨Cert.ReferenceIdeal.S512x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal))
    (x6 : (⟨Cert.ReferenceIdeal.S1024x512, .f32⟩ : BufTy).Contents (Elt Ideal)) (x7 : (⟨Cert.ReferenceIdeal.S512, .f32⟩ : BufTy).Contents (Elt Ideal)) :
    Cert.ReferenceIdeal.ReadP.val_main_v31 (F := Ideal) x0 x1 x2 x3 x4 x5 x6 x7 = Cert.Results.newArr x0 x1 x2 x3 x4 x5 x6 x7 := by
  funext i
  obtain ⟨j, d, rfl⟩ : ∃ (j : Fin 64) (d : Fin 512), i = ix2 j d := ⟨i 0, i 1, eq_ix2 i⟩
  exact Cert.ReferenceIdeal.RefIs.ref_new x0 x1 x2 x3 x4 x5 x6 x7 j d

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.ValueP.run (F := Ideal) m ρ)

theorem preserves : Cert.preserves_Kernel_KernelIdeal := trivial

/-- Both programs end with the two result arrays of the arguments: the kernel's run by its blocks and its
    accumulator, the reference's by its stages, the arguments agreeing. -/
theorem algebraic : Cert.algebraic_KernelIdeal_ReferenceIdeal := by
  intro m ρ m' ρ' _ hagree
  refine ⟨fun c => Cert.Results.selArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Results.newArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KSel.final8 m c), (h c).2.1.trans (Cert.KernelIdeal.KAcc.final9 m c), (h c).2.2⟩)
      (Cert.KernelIdeal.Value.run_blocks m ρ)
  · refine (θ_run Cert.ReferenceIdeal.defs _ _).mono (fun r h c => ⟨?_, ?_, (h c).2.2⟩)
      (Cert.ReferenceIdeal.ValueP.run (F := Ideal) m' ρ')
    · rw [(h c).1, Cert.ReferenceIdeal.ReadP.val_main_v20_eq, ref_sel_arr,
        (hagree c).1, (hagree c).2.1, (hagree c).2.2.1, (hagree c).2.2.2.1, (hagree c).2.2.2.2.1, (hagree c).2.2.2.2.2.1]
    · rw [(h c).2.1, Cert.ReferenceIdeal.ReadP.val_main_v31_eq, ref_new_arr,
        (hagree c).1, (hagree c).2.1, (hagree c).2.2.1, (hagree c).2.2.2.1, (hagree c).2.2.2.2.1, (hagree c).2.2.2.2.2.1,
        (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
